-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64 : Shape := ⟨3, ![8, 64, 64]⟩
abbrev S_ : Shape := ⟨0, ![]⟩

class Facts : Prop where
  bcast_S_S8x64x64 : S_.BroadcastsInDim S8x64x64 (![] : Fin 0 → Fin S8x64x64.rank)
  reducesTo_S8x64x64_S_d0_1_2 : S8x64x64.ReducesTo [0, 1, 2] S_
  h_S_ : 0 < S_.numel

variable [Facts]

def fn {F : FTy → Type} [FloatOps F] (main_arg0 : FVec F S8x64x64 .f32) (main_arg1 : FVec F S8x64x64 .f32) : IVec S_ 1 :=
  let main_v0 : FVec F S8x64x64 .f32 := Host.absf main_arg0
  let main_cst : FVec F S_ .f32 := constant S_ .f32 0x7F800000#32
  let main_v1 : FVec F S8x64x64 .f32 := broadcastInDim S8x64x64 ![] bcast_S_S8x64x64 main_cst
  let main_v2 : IVec S8x64x64 1 := cmpf .olt main_v0 main_v1
  let main_c : IVec S_ 1 := constantI S_ 1 1#1
  let main_v3 : IVec S_ 1 := (fun x v => Host.reduce IntOp.andi x v reducesTo_S8x64x64_S_d0_1_2 h_S_) main_v2 main_c
  let main_v4 : FVec F S8x64x64 .f32 := Host.absf main_arg1
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  main_v8
-- ==== Kernel.lean ====
abbrev S8x64x64 : Shape := ⟨3, ![8, 64, 64]⟩
abbrev S8x4096 : Shape := ⟨2, ![8, 4096]⟩
abbrev S_ : Shape := ⟨0, ![]⟩
abbrev S8 : Shape := ⟨1, ![8]⟩
abbrev S8x1 : Shape := ⟨2, ![8, 1]⟩
abbrev S8x1x4096 : Shape := ⟨3, ![8, 1, 4096]⟩
abbrev S8x1x128 : Shape := ⟨3, ![8, 1, 128]⟩
abbrev S1x1x512 : Shape := ⟨3, ![1, 1, 512]⟩
abbrev S1x1x128 : Shape := ⟨3, ![1, 1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S1x1 : Shape := ⟨2, ![1, 1]⟩
abbrev S8x1x1 : Shape := ⟨3, ![8, 1, 1]⟩

abbrev nBuf : Space → Nat
  | .hbm => 47
  | .vmem => 10
  | .smem => 0
  | _ => 0

abbrev bufTy : (tb : Table) → Fin (tcTables nBuf tb) → BufTy
  | .hbm, ⟨0, _⟩ => ⟨S8x64x64, .f32⟩
  | .hbm, ⟨1, _⟩ => ⟨S8x64x64, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8, .f32⟩
  | .hbm, ⟨6, _⟩ => ⟨S8x1, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .i1⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .i1⟩
  | .hbm, ⟨16, _⟩ => ⟨S8x4096, .f32⟩
  | .hbm, ⟨17, _⟩ => ⟨S8x1x4096, .f32⟩
  | .hbm, ⟨18, _⟩ => ⟨S8x1x4096, .f32⟩
  | .hbm, ⟨19, _⟩ => ⟨S8x1x4096, .f32⟩
  | .hbm, ⟨20, _⟩ => ⟨S8x1x128, .f32⟩
  | .hbm, ⟨21, _⟩ => ⟨S8x1x1, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .i1⟩
  | .hbm, ⟨34, _⟩ => ⟨S_, .f32⟩
  | .hbm, ⟨35, _⟩ => ⟨S8, .f32⟩
  | .hbm, ⟨36, _⟩ => ⟨S8, .i1⟩
  | .hbm, ⟨37, _⟩ => ⟨S8, .i1⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x128, .f32⟩
  | .local _ .vmem, ⟨9, _⟩ => ⟨S1x1x128, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  shapeCasts_S8x64x64_S8x4096 : S8x64x64.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  bcast_S_S8x4096 : S_.BroadcastsInDim S8x4096 (![] : Fin 0 → Fin S8x4096.rank)
  shapeCasts_S8x4096_S8x1x4096 : S8x4096.ShapeCasts S8x1x4096
  inb_S1x1x128_S1x1x128_0_0_0 : ∀ a, (![0, 0, 0] : Fin 3 → Nat) a + S1x1x128.size a ≤ S1x1x128.size a
  h_S1x1x128 : 0 < S1x1x128.numel
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  reduces_S1x512_S1 : S1x512.Reduces [1] S1
  shapeCasts_S1_S1x1 : S1.ShapeCasts S1x1
  inpos_S1x1_p0_0 : ∀ a, (![0, 0] : Fin 2 → Nat) a < S1x1.size a
  shapeCasts_S1x1x128_S1x1x128 : S1x1x128.ShapeCasts S1x1x128
  slices_S8x1x128_S8x1x1_0_0_0 : S8x1x128.Slices ![0, 0, 0] S8x1x1
  shapeCasts_S8x1x1_S8 : S8x1x1.ShapeCasts S8
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S8x1x4096.size a
  hwx0_0 : ∀ i : grid0.Coords, EltTy.bits .f32 = 32 ∨ (Rect.block (s := S8x1x4096) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x4096.size a
  hwx0_1 : ∀ i : grid0.Coords, EltTy.bits .f32 = 32 ∨ (Rect.block (s := S8x1x4096) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x4096.size a
  hwx0_3 : ∀ i : grid0.Coords, EltTy.bits .f32 = 32 ∨ (Rect.block (s := S8x1x4096) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

abbrev win0_0 : Pipeline.Window sig grid0 :=
  Pipeline.Window.ofSpec (Memref.whole main_v12) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x64 : Shape := ⟨3, ![8, 64, 64]⟩
abbrev S8x4096 : Shape := ⟨2, ![8, 4096]⟩
abbrev S_ : Shape := ⟨0, ![]⟩
abbrev S8 : Shape := ⟨1, ![8]⟩
abbrev S8x1 : Shape := ⟨2, ![8, 1]⟩
abbrev S8x4096x1 : Shape := ⟨3, ![8, 4096, 1]⟩
abbrev S8x1x4096 : Shape := ⟨3, ![8, 1, 4096]⟩
abbrev S8x4096x4096 : Shape := ⟨3, ![8, 4096, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S8x64x64, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8, .f32⟩
  | .hbm, ⟨6, _⟩ => ⟨S8x1, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .i1⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .i1⟩
  | .hbm, ⟨16, _⟩ => ⟨S8x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x1, .f32⟩
  | .hbm, ⟨26, _⟩ => ⟨S8x1x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .i1⟩
  | .hbm, ⟨47, _⟩ => ⟨S_, .f32⟩
  | .hbm, ⟨48, _⟩ => ⟨S8, .f32⟩
  | .hbm, ⟨49, _⟩ => ⟨S8, .i1⟩
  | .hbm, ⟨50, _⟩ => ⟨S8, .i1⟩
  | .hbm, ⟨51, _⟩ => ⟨S8, .f32⟩
  | .hbm, ⟨52, _⟩ => ⟨S_, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_cst : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_call1_v0 : Ref sig .tc := ⟨.hbm, 53, rfl⟩
abbrev main_call1_v1 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  shapeCasts_S8x64x64_S8x4096 : S8x64x64.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8_d1_2 : S8x4096x4096.ReducesTo [1, 2] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.K.Body.lean ====
/-
  The kernel's body at a grid point, and the pipeline's proof data built on it.

  The grid is 8 × 8 × 8: batch `b`, row tile `ki`, column tile `kj`; point `t` has `b = t / 64`, `ki = t / 8 % 8`,
  `kj = t % 8`. At a point the body reads four 512-vectors (the normalised values and the positive mask on the row
  tile, the normalised values and the negative mask on the column tile), forms the 512 × 512 tile of hinge terms
  `max (1/2 − (xᵢ − xⱼ)) 0 · (posᵢ · negⱼ)`, sums it to one number (`tileSum`) and adds that number to every lane of
  the 128-lane output block of batch `b`, which it first sets to zero at the batch's first point (`ki = kj = 0`).
  So after point `t` the output block holds the running sum of the tiles of its batch up to `t` (`accAt`).
-/
import proofs.«156271_j16037407883702_1_alg».proof.Proof.Gen.Kernel.Launch
import proofs.«156271_j16037407883702_1_alg».proof.Proof.Gen.Kernel.Skeleton
import proofs.«156271_j16037407883702_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sum of the tile of hinge terms at point `t`. -/
def tileSum (c : Dev nD) (t : Fin cfg0.N) : F .f32 :=
  k0_pay3 (iblk V c 0 t) (iblk V c 1 t) (iblk V c 2 t) (iblk V c 3 t)

/-- What the output block's staging buffer holds after the body at point `n`: at a batch's first point the tile's
    sum over zero, later the tile's sum over what the point before left. -/
def accAt (c : Dev nD) : (n : ℕ) → n < cfg0.N → Vec F S1x1x128 .f32
  | 0, hn => k0_pay1 (tileSum V c ⟨0, hn⟩) (k0_pay2 (F := F))
  | n + 1, hn =>
    if (n + 1) % 64 = 0 then k0_pay1 (tileSum V c ⟨n + 1, hn⟩) (k0_pay2 (F := F))
    else k0_pay1 (tileSum V c ⟨n + 1, hn⟩) (accAt c n (Nat.lt_of_succ_lt hn))

theorem accAt_first (c : Dev nD) (t : Fin cfg0.N) (h : t.val % 64 = 0) :
    accAt V c t.val t.isLt = k0_pay1 (tileSum V c t) (k0_pay2 (F := F)) := by
  obtain ⟨n, hn⟩ := t
  cases n with
  | zero => rfl
  | succ n => exact (if_pos h).trans rfl

theorem accAt_later (c : Dev nD) (t : Fin cfg0.N) (h : ¬ t.val % 64 = 0) :
    accAt V c t.val t.isLt
      = k0_pay1 (tileSum V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The pipeline's proof data on core `c`: the arrays as the region finds them; after the body each input's buffer at its
    block and the output's at the running sum; the two windows on the array of normalised values hold it at the two
    halves of the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => accAt V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_out (c : Dev nD) (t : Fin cfg0.N) : (dat V c).after 4 t = accAt V c t.val t.isLt := by dsimp only [dat]

/-! ## The branch of the body -/

/-- The condition of the body's conditional, from the grid coordinates: row tile and column tile are both the first. -/
abbrev isFirst (i : grid0.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

/-- It holds exactly at the first point of each batch: decided over the 512 points. -/
theorem isFirst_iff : ∀ t : Fin cfg0.N, isFirst (grid0.coords t) ↔ t.val % 64 = 0 :=
  (by decide +kernel : ∀ t : Fin grid0.N, isFirst (grid0.coords t) ↔ t.val % 64 = 0)

/-! ## The current staging buffers at a point -/

abbrev ms0 (t : Fin cfg0.N) : Memref sig .tc .vmem S1x1x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)

/-! ## The body run on any whole buffers, one run per case of the branch -/

set_option maxHeartbeats 1000000 in
/-- At a batch's first point: whatever the output's buffer held, the body zeroes it, reads the zeros back and stores
    the tile's sum over them. The stores it leaves in the output's buffer (last first) are the witness. -/
noncomputable def runFirst (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : isFirst i)
    (x0 x1 x2 x3 : Vec F S1x1x512 .f32) :
    { L : List (View.Piece (Elt F) S1x1x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ (∃ d, owns (c : Thread nD τ) arg7 fullShare d)
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ (∃ f, arg7.view.loc (c : Thread nD τ) ↦[arg7.view.set]{fullShare} arg7.view.writes (Elt F) f L)) -∗ K ⟨⟩))
          ⊢ wp frame (wpE (defs₀ (F := F)) Variants.none c none) E (cc0__pairwise_kernel i arg3 harg3 arg4 harg4 arg5 harg5 arg6 harg6 arg7 harg7) K } := by
  refine ⟨?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1
    obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

set_option maxHeartbeats 1000000 in
/-- At any other point: the output's buffer holds `y`; the body reads it and stores the tile's sum over it. -/
noncomputable def runLater (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : ¬ isFirst i)
    (x0 x1 x2 x3 : Vec F S1x1x512 .f32) (y : Vec F S1x1x128 .f32) :
    { L : List (View.Piece (Elt F) S1x1x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare y
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ (∃ f, arg7.view.loc (c : Thread nD τ) ↦[arg7.view.set]{fullShare} arg7.view.writes (Elt F) f L)) -∗ K ⟨⟩))
          ⊢ wp frame (wpE (defs₀ (F := F)) Variants.none c none) E (cc0__pairwise_kernel i arg3 harg3 arg4 harg4 arg5 harg5 arg6 harg6 arg7 harg7) K } := by
  refine ⟨?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1
    obtain rfl := harg5.eq_unread hf2; obtain rfl := harg6.eq_unread hf3
    obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-! ## What each run leaves in the output's buffer -/

/-- Each run's last store is through the whole block, so its stores cover the block. -/
theorem coverFirst (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : isFirst i)
    (x0 x1 x2 x3 : Vec F S1x1x512 .f32) (j : S1x1x128.Idx) :
    ∃ pc ∈ (runFirst c i arg3 harg3 arg4 harg4 arg5 harg5 arg6 harg6 arg7 harg7 hc x0 x1 x2 x3).1, j ∈ pc.1.set :=
  View.cover_of_tiledL (runFirst c i arg3 harg3 arg4 harg4 arg5 harg5 arg6 harg6 arg7 harg7 hc x0 x1 x2 x3).1 S1x1x128.size (by sl_kernel_rfl) j

theorem coverLater (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : ¬ isFirst i)
    (x0 x1 x2 x3 : Vec F S1x1x512 .f32) (y : Vec F S1x1x128 .f32) (j : S1x1x128.Idx) :
    ∃ pc ∈ (runLater c i arg3 harg3 arg4 harg4 arg5 harg5 arg6 harg6 arg7 harg7 hc x0 x1 x2 x3 y).1, j ∈ pc.1.set :=
  View.cover_of_tiledL (runLater c i arg3 harg3 arg4 harg4 arg5 harg5 arg6 harg6 arg7 harg7 hc x0 x1 x2 x3 y).1 S1x1x128.size (by sl_kernel_rfl) j

/-- The whole-block rectangle's offsets are zero. -/
theorem off3 : (![0, 0, 0] : Fin 3 → Nat) = fun _ => 0 := funext fun a => by fin_cases a <;> rfl

/-- At a batch's first point the output's buffer ends at the tile's sum over zero. -/
theorem canonFirst (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : isFirst i)
    (x0 x1 x2 x3 : Vec F S1x1x512 .f32) :
    View.canon (runFirst c i arg3 harg3 arg4 harg4 arg5 harg5 arg6 harg6 arg7 harg7 hc x0 x1 x2 x3).1
      = k0_pay1 (k0_pay3 x0 x1 x2 x3) (k0_pay2 (F := F)) := by
  unfold runFirst
  dsimp only
  sl_unfold_words
  rw [View.canon_cons_unit_zero (S := S1x1x128) off3, View.readCov_unit_zero (S := S1x1x128) _ off3]
  simp only [View.readAt_eq_ld, harg3.read_unread, harg4.read_unread, harg5.read_unread, harg6.read_unread,
    View.ld_unit_zero (S := S1x1x512) off3]

/-- At any other point it ends at the tile's sum over what it held. -/
theorem canonLater (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : ¬ isFirst i)
    (x0 x1 x2 x3 : Vec F S1x1x512 .f32) (y : Vec F S1x1x128 .f32) :
    View.canon (runLater c i arg3 harg3 arg4 harg4 arg5 harg5 arg6 harg6 arg7 harg7 hc x0 x1 x2 x3 y).1
      = k0_pay1 (k0_pay3 x0 x1 x2 x3) y := by
  unfold runLater
  dsimp only
  sl_unfold_words
  rw [View.canon_unit_zero (S := S1x1x128) off3]
  simp only [View.readAt_eq_ld, harg3.read_unread, harg4.read_unread, harg5.read_unread, harg6.read_unread,
    View.ld_unit_zero (S := S1x1x512) off3, harg7.read_unread,
    View.ld_unit_zero (S := S1x1x128) off3]

/-! ## What the buffers hold when the body is called -/

/-- What the body leaves in the inputs' buffers: their blocks, untouched. -/
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_in3 (c : Dev nD) (t : Fin cfg0.N) : (dat V c).after 3 t = iblk V c 3 t := by dsimp only [dat]

/-- Each input's current buffer holds its block at every point, fetched there or not: where it is not fetched the
    block index has not moved since the point before, and the body left the block in place. -/
theorem before_in0 (c : Dev nD) (t : Fin cfg0.N) (d) : (dat V c).before 0 t d = iblk V c 0 t :=
  ((dat V c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dat V c).before 1 t d = iblk V c 1 t :=
  ((dat V c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dat V c).before 2 t d = iblk V c 2 t :=
  ((dat V c).before_in_eq_fetched 2 rfl (fun _ => rfl) (fun _ _ _ => rfl)
      (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dat V c).before 3 t d = iblk V c 3 t :=
  ((dat V c).before_in_eq_fetched 3 rfl (fun _ => rfl) (fun _ _ _ => rfl)
      (fun t => by rw [after_in3]; unfold Dat.blockOf iblk; rw [A_eq]; try rfl) t d).trans
    (by unfold Dat.fetched Dat.blockOf iblk; rw [A_eq]; try rfl)

/-- At a point that is not a batch's first, the output's buffer holds what the body left at the point before: the
    buffer is written back only at a batch's last point, and the point before is not one. -/
theorem before_out_later (c : Dev nD) (t : Fin cfg0.N) (h : ¬ t.val % 64 = 0) (d) :
    (dat V c).before 4 t d = accAt V c (t.val - 1) (Nat.lt_of_le_of_lt (Nat.sub_le _ _) t.isLt) := by
  have hN : t.val < 512 := lt_of_lt_of_eq t.isLt (show cfg0.N = 512 from N_0)
  rw [Dat.before_out_kept _ 4 rfl t (by omega)
    (Bool.eq_false_iff.mpr fun h' => by have := (flush0_4 _).mp h'; dsimp only at this; omega)
    (fun _ => rfl) (fun _ _ => rfl)]
  dsimp only [dat]

/-! ## The body at a point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 800000 in
/-- The body at any point. The inputs' buffers hold their blocks; at a batch's first point the output's buffer holds
    anything and ends at the tile's sum over zero; at any other point it holds the running sum of the point before and
    ends at the tile's sum over it. The invariant and what the core owes pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3]
  rw [show (dat V c).Φ t.succ = (dat V c).Φ t.castSucc from rfl,
    show (dat V c).owesAt () t.succ = (dat V c).owesAt () t.castSucc from rfl,
    after_in0, after_in1, after_in2, after_in3, after_out]
  by_cases h0 : t.val % 64 = 0
  · rw [accAt_first V c t h0]
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((isFirst_iff t).mpr h0)
      (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    rw [View.read_writes_eq_canon _ _ _ (coverFirst c _ _ _ _ _ _ _ _ _ _ _ _ _ _ _ _)]
    exact canonFirst c _ _ _ _ _ _ _ _ _ _ _ _ _ _ _ _
  · rw [accAt_later V c t h0]
    simp only [before_out_later V c t h0]
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((isFirst_iff t).mp h))
      (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    rw [View.read_writes_eq_canon _ _ _ (coverLater c _ _ _ _ _ _ _ _ _ _ _ _ _ _ _ _ _)]
    exact canonLater c _ _ _ _ _ _ _ _ _ _ _ _ _ _ _ _ _

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.K.Fold.lean ====
/-
  The buffer contents at each boundary of @main, as a fold from the launch memory: the eighteen host operations before
  the kernel region, the region (which changes one array: the per-batch sums, at what the write-backs leave), and the
  three stretches of host operations after it (the counts, the quotient and the mean).
-/
import proofs.«156271_j16037407883702_1_alg».proof.Proof.K.Body
import Idealize.ShloMosaic.Lib.Pipeline.Regions
import Idealize.ShloMosaic.Lib.Pipeline.Frame

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
/-- The same read at the TensorCore's references: what the region's proof data take. -/
abbrev V1 : (c : Dev nD) → (b : Ref sig .tc) → Buf (Elt F) ((c : Thread nD τ).loc b) := fun c b => W1 m ρ c b
/-- What the region leaves in the array of per-batch sums. -/
abbrev sums (c : Dev nD) : Buf (Elt F) ((c : Thread nD τ).loc main_v15) := (dat (V1 m ρ) c).arrAt 4 cfg0.N
/-- At the region's exit: the array of per-batch sums at what the write-backs leave, every other buffer as entered. -/
def W2 (c : Dev nD) : Valuation τ sig (Elt F) :=
  Function.update (W1 m ρ c) (Proc.devRef .tc main_v15) (sums m ρ c)
/-- After the first stretch of host operations behind the region, -/
abbrev W3 : Dev nD → Valuation τ sig (Elt F) := fun c => StableHlo.after hostOps1 (W2 m ρ c)
/-- the selection of the valid rows, -/
abbrev W4 : Dev nD → Valuation τ sig (Elt F) := fun c => StableHlo.after hostOps1_1 (W3 m ρ c)
/-- and the mean: the contents at the return. -/
abbrev W5 : Dev nD → Valuation τ sig (Elt F) := fun c => StableHlo.after hostOps1_2 (W4 m ρ c)

theorem W2_sums (c : Dev nD) : W2 m ρ c (Proc.devRef .tc main_v15) = sums m ρ c := by
  unfold W2; exact Function.update_self ..

theorem W2_of_ne (c : Dev nD) (b : Ref sig .tc) (hb : b ≠ main_v15) :
    W2 m ρ c (Proc.devRef .tc b) = W1 m ρ c (Proc.devRef .tc b) := by
  unfold W2; exact Function.update_of_ne (fun e => hb (Proc.devRef_injective _ e)) ..

end Cert.Kernel.Hand

end
-- ==== Proof.K.Run.lean ====
/-
  The frame of the kernel's program, at any float values: @main runs as five segments — eighteen host operations, the
  kernel region, and three stretches of host operations — and every unscoped buffer ends at what the fold through
  @main computes; the two arguments, which nothing writes, end as launched.

  The region's five windows name four arrays: the row-tile window and the column-tile window both read the array of
  normalised values. The pipeline therefore holds that array twice, at the two halves of the full share, which is
  enough to read it; at the region's entry its points-to is split in two and at the exit the halves are joined again.
  The output window alone is written: the array of per-batch sums leaves the region at what the write-backs make it.
-/
import proofs.«156271_j16037407883702_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's arrays, window by window -/

section Arrays
variable (V : (c : Dev nD) → (b : Ref sig .tc) → Buf (Elt F) ((c : Thread nD τ).loc b))

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl

/-- The windows' arrays as the pipeline holds them: the array of normalised values twice, at the two halves of the full
    share (its row-tile window and its column-tile window), the two masks and the per-batch sums outright. -/
theorem arrays_unfold (c : Dev nD) (G : (w : Fin cfg0.W) → Buf (Elt F) ((cfg0.win w).arr.view.loc (c : Thread nD τ))) :
    ((dat V c).arrays G : sProp 𝕄)
      = iprop((((c : Thread nD τ).loc main_v12) ↦{fullShare.left} G 0) ∗ (((c : Thread nD τ).loc main_v12) ↦{fullShare.right} G 1)
          ∗ (((c : Thread nD τ).loc main_v13) ↦{fullShare} G 2) ∗ (((c : Thread nD τ).loc main_v14) ↦{fullShare} G 3)
          ∗ (((c : Thread nD τ).loc main_v15) ↦{fullShare} G 4)) := by
  have e : ((dat V c).arrays G : sProp 𝕄)
      = bigSep Finset.univ fun w : Fin cfg0.W => (((c : Thread nD τ).loc (Pipeline.arrRef spec0 w)) ↦{(dat V c).share w} G w : sProp 𝕄) := by
    unfold Dat.arrays
    exact bigSep_congr fun w _ => by rw [(arr_whole0 w).set_eq_univ]
  rw [e, bigSep_W0, share0, share1, share2, share3, share4]

/-- The four distinct buffers behind the five windows, each whole. -/
theorem arrBufs_unfold (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v12) ↦{fullShare} V' main_v12) ∗ (((c : Thread nD τ).loc main_v13) ↦{fullShare} V' main_v13)
          ∗ (((c : Thread nD τ).loc main_v14) ↦{fullShare} V' main_v14) ∗ (((c : Thread nD τ).loc main_v15) ↦{fullShare} V' main_v15)) := by
  unfold Pipeline.arrBufs
  exact bigSep_eq_bigSepL_of_eq [main_v12, main_v13, main_v14, main_v15] (by decide) (by decide) _

/-- ENTRY: the unscoped buffers at the entry contents are the pipeline's arrays at those contents — the array two
    windows read split into its two half shares — and the buffers no window names. -/
theorem arrays_of_unscoped (c : Dev nD) :
    (unscopedBufs (Ix := Unit) (Name := ℕ) (U := UR sig nD τ) (Lvl := ℕ) c (V c) : sProp 𝕄)
      ⊢ iprop((dat V c).arrays ((dat V c).arrAt · 0) ∗ Pipeline.unscopedRest spec0 c (V c)) := by
  rw [Pipeline.unscopedBufs_split₀ cfgs (0 : Fin 1) winFacts₀0.arr_unscoped c (V c), arrBufs_unfold, arrays_unfold]
  iintro ⟨⟨H12, H13, H14, H15⟩, Hrest⟩
  ihave H := (pointsTo_share (PosShare.mem_left_op_right fullShare)).1 $$ H12
  icases H with ⟨Hl, Hr⟩
  isplitr [Hrest]
  · isplitl [Hl]; · iexact Hl
    isplitl [Hr]; · iexact Hr
    isplitl [H13]; · iexact H13
    isplitl [H14]; · iexact H14
    iexact H15
  · iexact Hrest

/-- EXIT: the pipeline's arrays — the inputs as entered, the per-batch sums at contents `S` — and the buffers no window
    names make the unscoped buffers at any contents `V'` that agree: `S` at the array of sums, the entry contents elsewhere. -/
theorem unscoped_of_arrays (c : Dev nD) (V' : (b : Ref sig .tc) → Buf (Elt F) ((c : Thread nD τ).loc b))
    (hS : (dat V c).arrAt 4 cfg0.N = V' main_v15) (hrest : ∀ b, b ≠ main_v15 → V' b = V c b) :
    iprop((dat V c).arrays ((dat V c).arrAt · cfg0.N) ∗ Pipeline.unscopedRest (Ix := Unit) (Name := ℕ) (U := UR sig nD τ) (Lvl := ℕ) spec0 c (V c))
      ⊢ (unscopedBufs c V' : sProp 𝕄) := by
  rw [Pipeline.unscopedBufs_split₀ cfgs (0 : Fin 1) winFacts₀0.arr_unscoped c V', arrBufs_unfold, arrays_unfold,
    (dat V c).arrAt_in 0 rfl, (dat V c).arrAt_in 1 rfl, (dat V c).arrAt_in 2 rfl, (dat V c).arrAt_in 3 rfl, hS,
    hrest main_v12 (by decide), hrest main_v13 (by decide), hrest main_v14 (by decide)]
  have hR : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hrest b (fun e => (Finset.mem_sdiff.mp hb).2 (Finset.mem_image.mpr ⟨4, Finset.mem_univ _, e.symm⟩))]
  rw [hR]
  iintro ⟨⟨Hl, Hr, H13, H14, H15⟩, Hrest⟩
  isplitr [Hrest]
  · isplitl [Hl Hr]
    · iapply (pointsTo_share (PosShare.mem_left_op_right fullShare)).2
      isplitl [Hl]; · iexact Hl
      iexact Hr
    isplitl [H13]; · iexact H13
    isplitl [H14]; · iexact H14
    iexact H15
  · iexact Hrest

end Arrays

/-! ## The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents at the return, the generator register at some state. -/
abbrev Tₙ (c : Dev nD) : sProp 𝕄 := iprop(StableHlo.held (c : Thread nD τ) (Pipeline.ucRefs τ sig) (W5 m ρ c) ∗ ∃ r, prngReg c r)

/-- The region's exit contents read at the TensorCore's references. -/
abbrev V2 : (c : Dev nD) → (b : Ref sig .tc) → Buf (Elt F) ((c : Thread nD τ).loc b) := fun c b => W2 m ρ c b

/-! ## The region as a segment -/

set_option backward.isDefEq.respectTransparency.types false in
/-- The kernel region over the thread state: entered from every unscoped buffer at the contents the host operations
    before it left, left with the array of per-batch sums at what the write-backs leave and every other buffer as
    entered. The array two windows read goes in as two half shares and comes back whole. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscoped (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscoped_of_arrays (V1 m ρ) c (V2 m ρ c) (W2_sums m ρ c).symm (fun b hb => W2_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's five segments in order: the host operations before the region, the region, and the three stretches after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)) ]

/-- @main is the run of the segments. -/
theorem main_run (c : Dev nD) : main (F := F) c = Pipeline.Seg.run (segs m ρ) := (main_chain c).trans (by chain_rfl)

set_option backward.isDefEq.respectTransparency.types false in
/-- THE RUN, at any float values: from any memory with zero counters every weakly fair execution of @main on the
    TensorCores terminates, nothing faulting, and the final state holds at every unscoped buffer what the fold through
    @main computes. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME, at any float values: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run m ρ)

end Cert.Kernel.Hand

end
-- ==== Proof.KI.Body.lean ====
/-
  The kernel's body at a grid point, and the pipeline's proof data built on it.

  The grid is 8 × 8 × 8: batch `b`, row tile `ki`, column tile `kj`; point `t` has `b = t / 64`, `ki = t / 8 % 8`,
  `kj = t % 8`. At a point the body reads four 512-vectors (the normalised values and the positive mask on the row
  tile, the normalised values and the negative mask on the column tile), forms the 512 × 512 tile of hinge terms
  `max (1/2 − (xᵢ − xⱼ)) 0 · (posᵢ · negⱼ)`, sums it to one number (`tileSum`) and adds that number to every lane of
  the 128-lane output block of batch `b`, which it first sets to zero at the batch's first point (`ki = kj = 0`).
  So after point `t` the output block holds the running sum of the tiles of its batch up to `t` (`accAt`).
-/
import proofs.«156271_j16037407883702_1_alg».proof.Proof.Gen.KernelIdeal.Launch
import proofs.«156271_j16037407883702_1_alg».proof.Proof.Gen.KernelIdeal.Skeleton
import proofs.«156271_j16037407883702_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sum of the tile of hinge terms at point `t`. -/
def tileSum (c : Dev nD) (t : Fin cfg0.N) : F .f32 :=
  k0_pay3 (iblk V c 0 t) (iblk V c 1 t) (iblk V c 2 t) (iblk V c 3 t)

/-- What the output block's staging buffer holds after the body at point `n`: at a batch's first point the tile's
    sum over zero, later the tile's sum over what the point before left. -/
def accAt (c : Dev nD) : (n : ℕ) → n < cfg0.N → Vec F S1x1x128 .f32
  | 0, hn => k0_pay1 (tileSum V c ⟨0, hn⟩) (k0_pay2 (F := F))
  | n + 1, hn =>
    if (n + 1) % 64 = 0 then k0_pay1 (tileSum V c ⟨n + 1, hn⟩) (k0_pay2 (F := F))
    else k0_pay1 (tileSum V c ⟨n + 1, hn⟩) (accAt c n (Nat.lt_of_succ_lt hn))

theorem accAt_first (c : Dev nD) (t : Fin cfg0.N) (h : t.val % 64 = 0) :
    accAt V c t.val t.isLt = k0_pay1 (tileSum V c t) (k0_pay2 (F := F)) := by
  obtain ⟨n, hn⟩ := t
  cases n with
  | zero => rfl
  | succ n => exact (if_pos h).trans rfl

theorem accAt_later (c : Dev nD) (t : Fin cfg0.N) (h : ¬ t.val % 64 = 0) :
    accAt V c t.val t.isLt
      = k0_pay1 (tileSum V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The pipeline's proof data on core `c`: the arrays as the region finds them; after the body each input's buffer at its
    block and the output's at the running sum; the two windows on the array of normalised values hold it at the two
    halves of the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => accAt V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_out (c : Dev nD) (t : Fin cfg0.N) : (dat V c).after 4 t = accAt V c t.val t.isLt := by dsimp only [dat]

/-! ## The branch of the body -/

/-- The condition of the body's conditional, from the grid coordinates: row tile and column tile are both the first. -/
abbrev isFirst (i : grid0.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

/-- It holds exactly at the first point of each batch: decided over the 512 points. -/
theorem isFirst_iff : ∀ t : Fin cfg0.N, isFirst (grid0.coords t) ↔ t.val % 64 = 0 :=
  (by decide +kernel : ∀ t : Fin grid0.N, isFirst (grid0.coords t) ↔ t.val % 64 = 0)

/-! ## The current staging buffers at a point -/

abbrev ms0 (t : Fin cfg0.N) : Memref sig .tc .vmem S1x1x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)

/-! ## The body run on any whole buffers, one run per case of the branch -/

set_option maxHeartbeats 1000000 in
/-- At a batch's first point: whatever the output's buffer held, the body zeroes it, reads the zeros back and stores
    the tile's sum over them. The stores it leaves in the output's buffer (last first) are the witness. -/
noncomputable def runFirst (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : isFirst i)
    (x0 x1 x2 x3 : Vec F S1x1x512 .f32) :
    { L : List (View.Piece (Elt F) S1x1x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ (∃ d, owns (c : Thread nD τ) arg7 fullShare d)
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ (∃ f, arg7.view.loc (c : Thread nD τ) ↦[arg7.view.set]{fullShare} arg7.view.writes (Elt F) f L)) -∗ K ⟨⟩))
          ⊢ wp frame (wpE (defs₀ (F := F)) Variants.none c none) E (cc0__pairwise_kernel i arg3 harg3 arg4 harg4 arg5 harg5 arg6 harg6 arg7 harg7) K } := by
  refine ⟨?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1
    obtain rfl := harg5.eq_unread hf2; obtain rfl := harg6.eq_unread hf3
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

set_option maxHeartbeats 1000000 in
/-- At any other point: the output's buffer holds `y`; the body reads it and stores the tile's sum over it. -/
noncomputable def runLater (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : ¬ isFirst i)
    (x0 x1 x2 x3 : Vec F S1x1x512 .f32) (y : Vec F S1x1x128 .f32) :
    { L : List (View.Piece (Elt F) S1x1x128 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare y
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ (∃ f, arg7.view.loc (c : Thread nD τ) ↦[arg7.view.set]{fullShare} arg7.view.writes (Elt F) f L)) -∗ K ⟨⟩))
          ⊢ wp frame (wpE (defs₀ (F := F)) Variants.none c none) E (cc0__pairwise_kernel i arg3 harg3 arg4 harg4 arg5 harg5 arg6 harg6 arg7 harg7) K } := by
  refine ⟨?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1
    obtain rfl := harg5.eq_unread hf2; obtain rfl := harg6.eq_unread hf3
    obtain rfl := harg7.eq_unread hf4
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-! ## What each run leaves in the output's buffer -/

/-- Each run's last store is through the whole block, so its stores cover the block. -/
theorem coverFirst (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : isFirst i)
    (x0 x1 x2 x3 : Vec F S1x1x512 .f32) (j : S1x1x128.Idx) :
    ∃ pc ∈ (runFirst c i arg3 harg3 arg4 harg4 arg5 harg5 arg6 harg6 arg7 harg7 hc x0 x1 x2 x3).1, j ∈ pc.1.set :=
  View.cover_of_tiledL (runFirst c i arg3 harg3 arg4 harg4 arg5 harg5 arg6 harg6 arg7 harg7 hc x0 x1 x2 x3).1 S1x1x128.size (by sl_kernel_rfl) j

theorem coverLater (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : ¬ isFirst i)
    (x0 x1 x2 x3 : Vec F S1x1x512 .f32) (y : Vec F S1x1x128 .f32) (j : S1x1x128.Idx) :
    ∃ pc ∈ (runLater c i arg3 harg3 arg4 harg4 arg5 harg5 arg6 harg6 arg7 harg7 hc x0 x1 x2 x3 y).1, j ∈ pc.1.set :=
  View.cover_of_tiledL (runLater c i arg3 harg3 arg4 harg4 arg5 harg5 arg6 harg6 arg7 harg7 hc x0 x1 x2 x3 y).1 S1x1x128.size (by sl_kernel_rfl) j

/-- The whole-block rectangle's offsets are zero. -/
theorem off3 : (![0, 0, 0] : Fin 3 → Nat) = fun _ => 0 := funext fun a => by fin_cases a <;> rfl

/-- At a batch's first point the output's buffer ends at the tile's sum over zero. -/
theorem canonFirst (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : isFirst i)
    (x0 x1 x2 x3 : Vec F S1x1x512 .f32) :
    View.canon (runFirst c i arg3 harg3 arg4 harg4 arg5 harg5 arg6 harg6 arg7 harg7 hc x0 x1 x2 x3).1
      = k0_pay1 (k0_pay3 x0 x1 x2 x3) (k0_pay2 (F := F)) := by
  unfold runFirst
  dsimp only
  sl_unfold_words
  rw [View.canon_cons_unit_zero (S := S1x1x128) off3, View.readCov_unit_zero (S := S1x1x128) _ off3]
  simp only [View.readAt_eq_ld, harg3.read_unread, harg4.read_unread, harg5.read_unread, harg6.read_unread,
    View.ld_unit_zero (S := S1x1x512) off3]

/-- At any other point it ends at the tile's sum over what it held. -/
theorem canonLater (c : Dev nD) (i : grid0.Coords)
    (arg3 : Memref sig .tc .vmem S1x1x512 .f32) (harg3 : arg3.IsWhole) (arg4 : Memref sig .tc .vmem S1x1x512 .f32) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x1x128 .f32) (harg7 : arg7.IsWhole) (hc : ¬ isFirst i)
    (x0 x1 x2 x3 : Vec F S1x1x512 .f32) (y : Vec F S1x1x128 .f32) :
    View.canon (runLater c i arg3 harg3 arg4 harg4 arg5 harg5 arg6 harg6 arg7 harg7 hc x0 x1 x2 x3 y).1
      = k0_pay1 (k0_pay3 x0 x1 x2 x3) y := by
  unfold runLater
  dsimp only
  sl_unfold_words
  rw [View.canon_unit_zero (S := S1x1x128) off3]
  simp only [View.readAt_eq_ld, harg3.read_unread, harg4.read_unread, harg5.read_unread, harg6.read_unread,
    View.ld_unit_zero (S := S1x1x512) off3, harg7.read_unread,
    View.ld_unit_zero (S := S1x1x128) off3]

/-! ## What the buffers hold when the body is called -/

/-- What the body leaves in the inputs' buffers: their blocks, untouched. -/
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_in3 (c : Dev nD) (t : Fin cfg0.N) : (dat V c).after 3 t = iblk V c 3 t := by dsimp only [dat]

/-- Each input's current buffer holds its block at every point, fetched there or not: where it is not fetched the
    block index has not moved since the point before, and the body left the block in place. -/
theorem before_in0 (c : Dev nD) (t : Fin cfg0.N) (d) : (dat V c).before 0 t d = iblk V c 0 t :=
  ((dat V c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dat V c).before 1 t d = iblk V c 1 t :=
  ((dat V c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dat V c).before 2 t d = iblk V c 2 t :=
  ((dat V c).before_in_eq_fetched 2 rfl (fun _ => rfl) (fun _ _ _ => rfl)
      (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dat V c).before 3 t d = iblk V c 3 t :=
  ((dat V c).before_in_eq_fetched 3 rfl (fun _ => rfl) (fun _ _ _ => rfl)
      (fun t => by rw [after_in3]; unfold Dat.blockOf iblk; rw [A_eq]; try rfl) t d).trans
    (by unfold Dat.fetched Dat.blockOf iblk; rw [A_eq]; try rfl)

/-- At a point that is not a batch's first, the output's buffer holds what the body left at the point before: the
    buffer is written back only at a batch's last point, and the point before is not one. -/
theorem before_out_later (c : Dev nD) (t : Fin cfg0.N) (h : ¬ t.val % 64 = 0) (d) :
    (dat V c).before 4 t d = accAt V c (t.val - 1) (Nat.lt_of_le_of_lt (Nat.sub_le _ _) t.isLt) := by
  have hN : t.val < 512 := lt_of_lt_of_eq t.isLt (show cfg0.N = 512 from N_0)
  rw [Dat.before_out_kept _ 4 rfl t (by omega)
    (Bool.eq_false_iff.mpr fun h' => by have := (flush0_4 _).mp h'; dsimp only at this; omega)
    (fun _ => rfl) (fun _ _ => rfl)]
  dsimp only [dat]

/-! ## The body at a point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 800000 in
/-- The body at any point. The inputs' buffers hold their blocks; at a batch's first point the output's buffer holds
    anything and ends at the tile's sum over zero; at any other point it holds the running sum of the point before and
    ends at the tile's sum over it. The invariant and what the core owes pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3]
  rw [show (dat V c).Φ t.succ = (dat V c).Φ t.castSucc from rfl,
    show (dat V c).owesAt () t.succ = (dat V c).owesAt () t.castSucc from rfl,
    after_in0, after_in1, after_in2, after_in3, after_out]
  by_cases h0 : t.val % 64 = 0
  · rw [accAt_first V c t h0]
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((isFirst_iff t).mpr h0)
      (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    rw [View.read_writes_eq_canon _ _ _ (coverFirst c _ _ _ _ _ _ _ _ _ _ _ _ _ _ _ _)]
    exact canonFirst c _ _ _ _ _ _ _ _ _ _ _ _ _ _ _ _
  · rw [accAt_later V c t h0]
    simp only [before_out_later V c t h0]
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((isFirst_iff t).mp h))
      (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    rw [View.read_writes_eq_canon _ _ _ (coverLater c _ _ _ _ _ _ _ _ _ _ _ _ _ _ _ _ _)]
    exact canonLater c _ _ _ _ _ _ _ _ _ _ _ _ _ _ _ _ _

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.KI.Fold.lean ====
/-
  The buffer contents at each boundary of @main, as a fold from the launch memory: the eighteen host operations before
  the kernel region, the region (which changes one array: the per-batch sums, at what the write-backs leave), and the
  three stretches of host operations after it (the counts, the quotient and the mean).
-/
import proofs.«156271_j16037407883702_1_alg».proof.Proof.KI.Body
import Idealize.ShloMosaic.Lib.Pipeline.Regions
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
/-- The same read at the TensorCore's references: what the region's proof data take. -/
abbrev V1 : (c : Dev nD) → (b : Ref sig .tc) → Buf (Elt F) ((c : Thread nD τ).loc b) := fun c b => W1 m ρ c b
/-- What the region leaves in the array of per-batch sums. -/
abbrev sums (c : Dev nD) : Buf (Elt F) ((c : Thread nD τ).loc main_v15) := (dat (V1 m ρ) c).arrAt 4 cfg0.N
/-- At the region's exit: the array of per-batch sums at what the write-backs leave, every other buffer as entered. -/
def W2 (c : Dev nD) : Valuation τ sig (Elt F) :=
  Function.update (W1 m ρ c) (Proc.devRef .tc main_v15) (sums m ρ c)
/-- After the first stretch of host operations behind the region, -/
abbrev W3 : Dev nD → Valuation τ sig (Elt F) := fun c => StableHlo.after hostOps1 (W2 m ρ c)
/-- the selection of the valid rows, -/
abbrev W4 : Dev nD → Valuation τ sig (Elt F) := fun c => StableHlo.after hostOps1_1 (W3 m ρ c)
/-- and the mean: the contents at the return. -/
abbrev W5 : Dev nD → Valuation τ sig (Elt F) := fun c => StableHlo.after hostOps1_2 (W4 m ρ c)

theorem W2_sums (c : Dev nD) : W2 m ρ c (Proc.devRef .tc main_v15) = sums m ρ c := by
  unfold W2; exact Function.update_self ..

theorem W2_of_ne (c : Dev nD) (b : Ref sig .tc) (hb : b ≠ main_v15) :
    W2 m ρ c (Proc.devRef .tc b) = W1 m ρ c (Proc.devRef .tc b) := by
  unfold W2; exact Function.update_of_ne (fun e => hb (Proc.devRef_injective _ e)) ..

end Cert.KernelIdeal.Hand

end
-- ==== Proof.KI.Run.lean ====
/-
  The frame of the kernel's program, at any float values: @main runs as five segments — eighteen host operations, the
  kernel region, and three stretches of host operations — and every unscoped buffer ends at what the fold through
  @main computes; the two arguments, which nothing writes, end as launched.

  The region's five windows name four arrays: the row-tile window and the column-tile window both read the array of
  normalised values. The pipeline therefore holds that array twice, at the two halves of the full share, which is
  enough to read it; at the region's entry its points-to is split in two and at the exit the halves are joined again.
  The output window alone is written: the array of per-batch sums leaves the region at what the write-backs make it.
-/
import proofs.«156271_j16037407883702_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's arrays, window by window -/

section Arrays
variable (V : (c : Dev nD) → (b : Ref sig .tc) → Buf (Elt F) ((c : Thread nD τ).loc b))

theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl

/-- The windows' arrays as the pipeline holds them: the array of normalised values twice, at the two halves of the full
    share (its row-tile window and its column-tile window), the two masks and the per-batch sums outright. -/
theorem arrays_unfold (c : Dev nD) (G : (w : Fin cfg0.W) → Buf (Elt F) ((cfg0.win w).arr.view.loc (c : Thread nD τ))) :
    ((dat V c).arrays G : sProp 𝕄)
      = iprop((((c : Thread nD τ).loc main_v12) ↦{fullShare.left} G 0) ∗ (((c : Thread nD τ).loc main_v12) ↦{fullShare.right} G 1)
          ∗ (((c : Thread nD τ).loc main_v13) ↦{fullShare} G 2) ∗ (((c : Thread nD τ).loc main_v14) ↦{fullShare} G 3)
          ∗ (((c : Thread nD τ).loc main_v15) ↦{fullShare} G 4)) := by
  have e : ((dat V c).arrays G : sProp 𝕄)
      = bigSep Finset.univ fun w : Fin cfg0.W => (((c : Thread nD τ).loc (Pipeline.arrRef spec0 w)) ↦{(dat V c).share w} G w : sProp 𝕄) := by
    unfold Dat.arrays
    exact bigSep_congr fun w _ => by rw [(arr_whole0 w).set_eq_univ]
  rw [e, bigSep_W0, share0, share1, share2, share3, share4]

/-- The four distinct buffers behind the five windows, each whole. -/
theorem arrBufs_unfold (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v12) ↦{fullShare} V' main_v12) ∗ (((c : Thread nD τ).loc main_v13) ↦{fullShare} V' main_v13)
          ∗ (((c : Thread nD τ).loc main_v14) ↦{fullShare} V' main_v14) ∗ (((c : Thread nD τ).loc main_v15) ↦{fullShare} V' main_v15)) := by
  unfold Pipeline.arrBufs
  exact bigSep_eq_bigSepL_of_eq [main_v12, main_v13, main_v14, main_v15] (by decide) (by decide) _

/-- ENTRY: the unscoped buffers at the entry contents are the pipeline's arrays at those contents — the array two
    windows read split into its two half shares — and the buffers no window names. -/
theorem arrays_of_unscoped (c : Dev nD) :
    (unscopedBufs (Ix := Unit) (Name := ℕ) (U := UR sig nD τ) (Lvl := ℕ) c (V c) : sProp 𝕄)
      ⊢ iprop((dat V c).arrays ((dat V c).arrAt · 0) ∗ Pipeline.unscopedRest spec0 c (V c)) := by
  rw [Pipeline.unscopedBufs_split₀ cfgs (0 : Fin 1) winFacts₀0.arr_unscoped c (V c), arrBufs_unfold, arrays_unfold]
  iintro ⟨⟨H12, H13, H14, H15⟩, Hrest⟩
  ihave H := (pointsTo_share (PosShare.mem_left_op_right fullShare)).1 $$ H12
  icases H with ⟨Hl, Hr⟩
  isplitr [Hrest]
  · isplitl [Hl]; · iexact Hl
    isplitl [Hr]; · iexact Hr
    isplitl [H13]; · iexact H13
    isplitl [H14]; · iexact H14
    iexact H15
  · iexact Hrest

/-- EXIT: the pipeline's arrays — the inputs as entered, the per-batch sums at contents `S` — and the buffers no window
    names make the unscoped buffers at any contents `V'` that agree: `S` at the array of sums, the entry contents elsewhere. -/
theorem unscoped_of_arrays (c : Dev nD) (V' : (b : Ref sig .tc) → Buf (Elt F) ((c : Thread nD τ).loc b))
    (hS : (dat V c).arrAt 4 cfg0.N = V' main_v15) (hrest : ∀ b, b ≠ main_v15 → V' b = V c b) :
    iprop((dat V c).arrays ((dat V c).arrAt · cfg0.N) ∗ Pipeline.unscopedRest (Ix := Unit) (Name := ℕ) (U := UR sig nD τ) (Lvl := ℕ) spec0 c (V c))
      ⊢ (unscopedBufs c V' : sProp 𝕄) := by
  rw [Pipeline.unscopedBufs_split₀ cfgs (0 : Fin 1) winFacts₀0.arr_unscoped c V', arrBufs_unfold, arrays_unfold,
    (dat V c).arrAt_in 0 rfl, (dat V c).arrAt_in 1 rfl, (dat V c).arrAt_in 2 rfl, (dat V c).arrAt_in 3 rfl, hS,
    hrest main_v12 (by decide), hrest main_v13 (by decide), hrest main_v14 (by decide)]
  have hR : (Pipeline.unscopedRest (Ix := Unit) (Name := ℕ) (U := UR sig nD τ) (Lvl := ℕ) spec0 c V' : sProp 𝕄)
      = Pipeline.unscopedRest spec0 c (V c) := by
    unfold Pipeline.unscopedRest
    exact bigSep_congr fun b hb => by
      rw [hrest b (fun e => (Finset.mem_sdiff.mp hb).2 (Finset.mem_image.mpr ⟨4, Finset.mem_univ _, e.symm⟩))]
  rw [hR]
  iintro ⟨⟨Hl, Hr, H13, H14, H15⟩, Hrest⟩
  isplitr [Hrest]
  · isplitl [Hl Hr]
    · iapply (pointsTo_share (PosShare.mem_left_op_right fullShare)).2
      isplitl [Hl]; · iexact Hl
      iexact Hr
    isplitl [H13]; · iexact H13
    isplitl [H14]; · iexact H14
    iexact H15
  · iexact Hrest

end Arrays

/-! ## The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents at the return, the generator register at some state. -/
abbrev Tₙ (c : Dev nD) : sProp 𝕄 := iprop(StableHlo.held (c : Thread nD τ) (Pipeline.ucRefs τ sig) (W5 m ρ c) ∗ ∃ r, prngReg c r)

/-- The region's exit contents read at the TensorCore's references. -/
abbrev V2 : (c : Dev nD) → (b : Ref sig .tc) → Buf (Elt F) ((c : Thread nD τ).loc b) := fun c b => W2 m ρ c b

/-! ## The region as a segment -/

set_option backward.isDefEq.respectTransparency.types false in
/-- The kernel region over the thread state: entered from every unscoped buffer at the contents the host operations
    before it left, left with the array of per-batch sums at what the write-backs leave and every other buffer as
    entered. The array two windows read goes in as two half shares and comes back whole. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscoped (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscoped_of_arrays (V1 m ρ) c (V2 m ρ c) (W2_sums m ρ c).symm (fun b hb => W2_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's five segments in order: the host operations before the region, the region, and the three stretches after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)) ]

/-- @main is the run of the segments. -/
theorem main_run (c : Dev nD) : main (F := F) c = Pipeline.Seg.run (segs m ρ) := (main_chain c).trans (by chain_rfl)

set_option backward.isDefEq.respectTransparency.types false in
/-- THE RUN, at any float values: from any memory with zero counters every weakly fair execution of @main on the
    TensorCores terminates, nothing faulting, and the final state holds at every unscoped buffer what the fold through
    @main computes. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME, at any float values: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run m ρ)

end Cert.KernelIdeal.Hand

end
-- ==== Proof.TileSum.lean ====
/-
  Regrouping a double sum over 4096 × 4096 pairs by 512 × 512 tiles, and a running sum as a finite sum: the two
  identities, in any commutative additive monoid, that join a tiled accumulation to the plain double sum.
-/
import Mathlib.Algebra.BigOperators.Fin
import Mathlib.Algebra.BigOperators.Intervals

open scoped BigOperators

namespace Cert.TileSum

variable {M : Type*} [AddCommMonoid M]

/-- Row `i` of tile `u` (tiles numbered row-major over the 8 × 8 grid of tiles). -/
def row (u : Fin 64) (i : Fin 512) : Fin 4096 := ⟨512 * (u.val / 8) + i.val, by have := u.isLt; have := i.isLt; omega⟩
/-- Column `j` of tile `u`. -/
def col (u : Fin 64) (j : Fin 512) : Fin 4096 := ⟨512 * (u.val % 8) + j.val, by have := u.isLt; have := j.isLt; omega⟩

/-- An index below 4096 is a block number `a < 8` and an offset `i < 512`: the index is `512 * a + i`. -/
def blockOffset : Fin 8 × Fin 512 ≃ Fin 4096 where
  toFun p := ⟨512 * p.1.val + p.2.val, by have := p.1.isLt; have := p.2.isLt; omega⟩
  invFun i := (⟨i.val / 512, by have := i.isLt; omega⟩, ⟨i.val % 512, by omega⟩)
  left_inv p := by
    rcases p with ⟨⟨a, ha⟩, ⟨i, hi⟩⟩
    simp only [Prod.mk.injEq, Fin.mk.injEq]
    constructor <;> omega
  right_inv i := by
    rcases i with ⟨i, hi⟩
    simp only [Fin.mk.injEq]
    omega

/-- A tile number below 64 is a tile row `a < 8` and a tile column `b < 8`: the number is `8 * a + b`. -/
def tileGrid : Fin 8 × Fin 8 ≃ Fin 64 where
  toFun p := ⟨8 * p.1.val + p.2.val, by have := p.1.isLt; have := p.2.isLt; omega⟩
  invFun u := (⟨u.val / 8, by have := u.isLt; omega⟩, ⟨u.val % 8, by omega⟩)
  left_inv p := by
    rcases p with ⟨⟨a, ha⟩, ⟨b, hb⟩⟩
    simp only [Prod.mk.injEq, Fin.mk.injEq]
    constructor <;> omega
  right_inv u := by
    rcases u with ⟨u, hu⟩
    simp only [Fin.mk.injEq]
    omega

/-- The rows of tile `8 * a + b` are the indices of block `a`. -/
theorem row_tileGrid (a b : Fin 8) (i : Fin 512) : row (tileGrid (a, b)) i = blockOffset (a, i) := by
  rcases a with ⟨a, ha⟩; rcases b with ⟨b, hb⟩
  apply Fin.ext
  show 512 * ((8 * a + b) / 8) + i.val = 512 * a + i.val
  omega

/-- The columns of tile `8 * a + b` are the indices of block `b`. -/
theorem col_tileGrid (a b : Fin 8) (j : Fin 512) : col (tileGrid (a, b)) j = blockOffset (b, j) := by
  rcases a with ⟨a, ha⟩; rcases b with ⟨b, hb⟩
  apply Fin.ext
  show 512 * ((8 * a + b) % 8) + j.val = 512 * b + j.val
  omega

/-- The double sum over all pairs is the sum over the tiles of each tile's double sum. -/
theorem sum_tiles (g : Fin 4096 → Fin 4096 → M) :
    ∑ i : Fin 4096, ∑ j : Fin 4096, g i j = ∑ u : Fin 64, ∑ i : Fin 512, ∑ j : Fin 512, g (row u i) (col u j) := by
  calc ∑ i : Fin 4096, ∑ j : Fin 4096, g i j
      = ∑ p : Fin 8 × Fin 512, ∑ q : Fin 8 × Fin 512, g (blockOffset p) (blockOffset q) := by
        rw [← blockOffset.sum_comp]
        refine Finset.sum_congr rfl fun p _ => ?_
        rw [← blockOffset.sum_comp]
    _ = ∑ a : Fin 8, ∑ b : Fin 8, ∑ i : Fin 512, ∑ j : Fin 512,
          g (blockOffset (a, i)) (blockOffset (b, j)) := by
        rw [Fintype.sum_prod_type]
        refine Finset.sum_congr rfl fun a _ => ?_
        simp only [Fintype.sum_prod_type]
        rw [Finset.sum_comm]
    _ = ∑ p : Fin 8 × Fin 8, ∑ i : Fin 512, ∑ j : Fin 512,
          g (row (tileGrid p) i) (col (tileGrid p) j) := by
        rw [Fintype.sum_prod_type]
        simp only [row_tileGrid, col_tileGrid]
    _ = ∑ u : Fin 64, ∑ i : Fin 512, ∑ j : Fin 512, g (row u i) (col u j) :=
        tileGrid.sum_comp (fun u => ∑ i : Fin 512, ∑ j : Fin 512, g (row u i) (col u j))

/-- A running sum: the first term, then one term added at a time. -/
def runSum (f : ℕ → M) : ℕ → M
  | 0 => f 0
  | n + 1 => runSum f n + f (n + 1)

theorem runSum_eq (f : ℕ → M) (n : ℕ) : runSum f n = ∑ u ∈ Finset.range (n + 1), f u := by
  induction n with
  | zero => simp [runSum]
  | succ n ih => rw [runSum, ih, Finset.sum_range_succ f (n + 1)]

theorem runSum_63 (f : ℕ → M) : runSum f 63 = ∑ u : Fin 64, f u.val := by
  rw [runSum_eq]
  exact Finset.sum_range f

end Cert.TileSum
-- ==== Proof.KI.RegionValue.lean ====
/-
  What the kernel region leaves in the array of per-batch sums, at the ideal instance: entry (b, 0, l) — every lane l
  alike — is the sum over ALL pairs (i, j) of row b's hinge terms. Point t = 64 b + 8 ki + kj adds the 512 × 512 tile
  (ki, kj) of row b to the running sum the batch's first point started from zero; the block is written back after the
  batch's last point; and the 64 tiles of a row partition its 4096 × 4096 pairs.
-/
import proofs.«156271_j16037407883702_1_alg».proof.Proof.KI.Body
import proofs.«156271_j16037407883702_1_alg».proof.Proof.TileSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The hinge term of the pair (i, j) of row `b`, over the rows' values `X` and the two masks `P`, `N`. -/
def pairTerm (X P N : Fin 8 → Fin 4096 → EReal) (b : Fin 8) (i j : Fin 4096) : EReal :=
  max (Ideal.ofBits .f32 0x3F000000#32 - (X b i - X b j)) (Ideal.ofBits .f32 0x00000000#32) * (P b i * N b j)

/-! ## Vectors seen as a column, as a row, as a tile; the two lane sums -/

section Layout
variable {α : Type}

/-- A `[1, 1, a]` array cast to `[a]` reads, at `i`, the operand at `(0, 0, i)`. -/
theorem cast_11a_a {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the lanes of a 512 × 512 tile, read at row `i`. -/
theorem laneSum_rows (src : FVec Ideal S512x512 .f32) (h : S512x512.Reduces [1] S512) (hφ : FKind.Formats .f32)
    (hacc : (0x00000000#32 : BitVec 32) = 0x00000000#32) (i : Fin 512) :
    multiReduction (F := Ideal) .add [1] S512 src 0x00000000#32 h hφ hacc (ix1 i) = ∑ j : Fin 512, src (ix2 i j) := by
  refine (Ideal.multiReduction_add_single src 0x00000000#32 h hφ hacc (ix1 i)).trans ?_
  refine Finset.sum_congr rfl fun j _ => congrArg src ?_
  funext c
  match c with
  | ⟨0, _⟩ => rfl
  | ⟨1, _⟩ => rfl

/-- The sum of a row of 512 numbers. -/
theorem laneSum_row (src : FVec Ideal S1x512 .f32) (h : S1x512.Reduces [1] S1) (hφ : FKind.Formats .f32)
    (hacc : (0x00000000#32 : BitVec 32) = 0x00000000#32) (u : Fin 1) :
    multiReduction (F := Ideal) .add [1] S1 src 0x00000000#32 h hφ hacc (ix1 u) = ∑ j : Fin 512, src (ix2 u j) := by
  refine (Ideal.multiReduction_add_single src 0x00000000#32 h hφ hacc (ix1 u)).trans ?_
  refine Finset.sum_congr rfl fun j _ => congrArg src ?_
  funext c
  match c with
  | ⟨0, _⟩ => rfl
  | ⟨1, _⟩ => rfl

/-! ## The tile's arithmetic -/

/-- The hinge term of lanes `i`, `j` of a tile's four row vectors: values and positive mask on the tile's rows, values and
    negative mask on its columns. -/
def hinge (x0 x1 x2 x3 : FVec Ideal S1x1x512 .f32) (i j : Fin 512) : EReal :=
  max (Ideal.ofBits .f32 0x3F000000#32 - (x0 (ix3 (0 : Fin 1) (0 : Fin 1) i) - x1 (ix3 (0 : Fin 1) (0 : Fin 1) j)))
      (Ideal.ofBits .f32 0x00000000#32)
    * (x2 (ix3 (0 : Fin 1) (0 : Fin 1) i) * x3 (ix3 (0 : Fin 1) (0 : Fin 1) j))

/-- The one entry of a 1 × 1 array. -/
theorem extract_00 {α : Type} (v : S1x1.Idx → α) (h : ∀ a, (![0, 0] : Fin 2 → Nat) a < S1x1.size a) :
    extractAt ![0, 0] v h = v (ix2 (0 : Fin 1) (0 : Fin 1)) :=
  congrArg v (funext fun a => match a with | ⟨0, _⟩ => rfl | ⟨1, _⟩ => rfl)

/-- A 512-vector laid down the rows of the tile: entry `(i, j)` is the vector's lane `i`. -/
theorem down_rows (x : FVec Ideal S1x1x512 .f32) (i j : Fin 512) :
    broadcastTo S512x512 (shapeCast S512x1 (shapeCast S512 x shapeCasts_S1x1x512_S512) shapeCasts_S512_S512x1)
      broadcasts_S512x1_S512x512 (ix2 i j) = x (ix3 (0 : Fin 1) (0 : Fin 1) i) :=
  (bcast_a1_ab _ _ i j).trans ((cast_a_a1 _ _ i 0).trans (cast_11a_a _ _ i))

/-- A 512-vector laid along the columns of the tile: entry `(i, j)` is the vector's lane `j`. -/
theorem along_cols (x : FVec Ideal S1x1x512 .f32) (i j : Fin 512) :
    broadcastTo S512x512 (shapeCast S1x512 (shapeCast S512 x shapeCasts_S1x1x512_S512) shapeCasts_S512_S1x512)
      broadcasts_S1x512_S512x512 (ix2 i j) = x (ix3 (0 : Fin 1) (0 : Fin 1) j) :=
  (broadcastTo_1b_ab_apply _ _ i j).trans ((shapeCast_a_1a_apply _ _ 0 j).trans (cast_11a_a _ _ j))

/-- The tile's arithmetic: the sum over its 512 × 512 pairs of lanes of the hinge terms. -/
theorem tile_value (x0 x1 x2 x3 : FVec Ideal S1x1x512 .f32) :
    k0_pay3 (F := Ideal) x0 x1 x2 x3 = ∑ i : Fin 512, ∑ j : Fin 512, hinge x0 x1 x2 x3 i j := by
  unfold k0_pay3
  dsimp only
  refine (extract_00 _ _).trans ?_
  refine (shapeCast_a_1a_apply _ _ _ _).trans ?_
  refine (laneSum_row _ _ _ _ _).trans ?_
  refine Finset.sum_congr rfl fun i _ => ?_
  refine (shapeCast_a_1a_apply _ _ _ _).trans ?_
  refine (laneSum_rows _ _ _ _ _).trans ?_
  refine Finset.sum_congr rfl fun j _ => ?_
  simp only [mulf_apply, maximumf_apply, subf_apply, broadcast_apply, down_rows, along_cols]
  rfl

/-! ## Each block's lane is its array's entry -/

/-- The block each window is on at point `t = 64 b + 8 ki + kj`: the two windows on the row tile on block `(b, 0, ki)`,
    the two on the column tile on block `(b, 0, kj)`, the output's on block `(b, 0, 0)`. -/
theorem block_index : ∀ t : Fin cfg0.N,
    (win0_0.index t 0 = t.val / 64 ∧ win0_0.index t 1 = 0 ∧ win0_0.index t 2 = t.val / 8 % 8)
    ∧ (win0_1.index t 0 = t.val / 64 ∧ win0_1.index t 1 = 0 ∧ win0_1.index t 2 = t.val % 8)
    ∧ (win0_2.index t 0 = t.val / 64 ∧ win0_2.index t 1 = 0 ∧ win0_2.index t 2 = t.val / 8 % 8)
    ∧ (win0_3.index t 0 = t.val / 64 ∧ win0_3.index t 1 = 0 ∧ win0_3.index t 2 = t.val % 8)
    ∧ (win0_4.index t 0 = t.val / 64 ∧ win0_4.index t 1 = 0 ∧ win0_4.index t 2 = 0) :=
  (by decide +kernel : ∀ t : Fin grid0.N,
    (win0_0.index t 0 = t.val / 64 ∧ win0_0.index t 1 = 0 ∧ win0_0.index t 2 = t.val / 8 % 8)
    ∧ (win0_1.index t 0 = t.val / 64 ∧ win0_1.index t 1 = 0 ∧ win0_1.index t 2 = t.val % 8)
    ∧ (win0_2.index t 0 = t.val / 64 ∧ win0_2.index t 1 = 0 ∧ win0_2.index t 2 = t.val / 8 % 8)
    ∧ (win0_3.index t 0 = t.val / 64 ∧ win0_3.index t 1 = 0 ∧ win0_3.index t 2 = t.val % 8)
    ∧ (win0_4.index t 0 = t.val / 64 ∧ win0_4.index t 1 = 0 ∧ win0_4.index t 2 = 0))

/-- Lane `i` of the values' block on the row tile is entry `(b, 0, 512 ki + i)` of the array of values. -/
theorem rowValues_apply (c : Dev nD) (t : Fin cfg0.N) (i : Fin 512) (b : Fin 8) (k : Fin 4096)
    (hb : b.val = t.val / 64) (hk : k.val = 512 * (t.val / 8 % 8) + i.val) :
    (iblk (F := Ideal) V c 0 t : FVec Ideal S1x1x512 .f32) (ix3 (0 : Fin 1) (0 : Fin 1) i)
      = V c main_v12 (ix3 b (0 : Fin 1) k) := by
  obtain ⟨h0, h1, h2⟩ := (block_index t).1
  unfold iblk
  rw [View.read_apply]
  show V c main_v12 _ = V c main_v12 _
  congr 1
  funext a
  apply Fin.ext
  match a with
  | ⟨0, _⟩ => show win0_0.index t 0 * 1 + 1 * 0 = b.val; rw [h0, hb]; omega
  | ⟨1, _⟩ => show win0_0.index t 1 * 1 + 1 * 0 = 0; rw [h1]
  | ⟨2, _⟩ => show win0_0.index t 2 * 512 + 1 * i.val = k.val; rw [h2, hk]; omega

/-- Lane `j` of the values' block on the column tile is entry `(b, 0, 512 kj + j)` of the array of values. -/
theorem colValues_apply (c : Dev nD) (t : Fin cfg0.N) (j : Fin 512) (b : Fin 8) (k : Fin 4096)
    (hb : b.val = t.val / 64) (hk : k.val = 512 * (t.val % 8) + j.val) :
    (iblk (F := Ideal) V c 1 t : FVec Ideal S1x1x512 .f32) (ix3 (0 : Fin 1) (0 : Fin 1) j)
      = V c main_v12 (ix3 b (0 : Fin 1) k) := by
  obtain ⟨h0, h1, h2⟩ := (block_index t).2.1
  unfold iblk
  rw [View.read_apply]
  show V c main_v12 _ = V c main_v12 _
  congr 1
  funext a
  apply Fin.ext
  match a with
  | ⟨0, _⟩ => show win0_1.index t 0 * 1 + 1 * 0 = b.val; rw [h0, hb]; omega
  | ⟨1, _⟩ => show win0_1.index t 1 * 1 + 1 * 0 = 0; rw [h1]
  | ⟨2, _⟩ => show win0_1.index t 2 * 512 + 1 * j.val = k.val; rw [h2, hk]; omega

/-- Lane `i` of the positive mask's block is entry `(b, 0, 512 ki + i)` of the positive mask. -/
theorem rowMask_apply (c : Dev nD) (t : Fin cfg0.N) (i : Fin 512) (b : Fin 8) (k : Fin 4096)
    (hb : b.val = t.val / 64) (hk : k.val = 512 * (t.val / 8 % 8) + i.val) :
    (iblk (F := Ideal) V c 2 t : FVec Ideal S1x1x512 .f32) (ix3 (0 : Fin 1) (0 : Fin 1) i)
      = V c main_v13 (ix3 b (0 : Fin 1) k) := by
  obtain ⟨h0, h1, h2⟩ := (block_index t).2.2.1
  unfold iblk
  rw [View.read_apply]
  show V c main_v13 _ = V c main_v13 _
  congr 1
  funext a
  apply Fin.ext
  match a with
  | ⟨0, _⟩ => show win0_2.index t 0 * 1 + 1 * 0 = b.val; rw [h0, hb]; omega
  | ⟨1, _⟩ => show win0_2.index t 1 * 1 + 1 * 0 = 0; rw [h1]
  | ⟨2, _⟩ => show win0_2.index t 2 * 512 + 1 * i.val = k.val; rw [h2, hk]; omega

/-- Lane `j` of the negative mask's block is entry `(b, 0, 512 kj + j)` of the negative mask. -/
theorem colMask_apply (c : Dev nD) (t : Fin cfg0.N) (j : Fin 512) (b : Fin 8) (k : Fin 4096)
    (hb : b.val = t.val / 64) (hk : k.val = 512 * (t.val % 8) + j.val) :
    (iblk (F := Ideal) V c 3 t : FVec Ideal S1x1x512 .f32) (ix3 (0 : Fin 1) (0 : Fin 1) j)
      = V c main_v14 (ix3 b (0 : Fin 1) k) := by
  obtain ⟨h0, h1, h2⟩ := (block_index t).2.2.2.1
  unfold iblk
  rw [View.read_apply]
  show V c main_v14 _ = V c main_v14 _
  congr 1
  funext a
  apply Fin.ext
  match a with
  | ⟨0, _⟩ => show win0_3.index t 0 * 1 + 1 * 0 = b.val; rw [h0, hb]; omega
  | ⟨1, _⟩ => show win0_3.index t 1 * 1 + 1 * 0 = 0; rw [h1]
  | ⟨2, _⟩ => show win0_3.index t 2 * 512 + 1 * j.val = k.val; rw [h2, hk]; omega

/-! ## The tile's sum at a point -/

/-- The tile's sum at point `t` of batch `b`, tile `u` of the batch: the hinge terms of the tile's 512 × 512 pairs. -/
theorem tileSum_apply (c : Dev nD) (X P N : Fin 8 → Fin 4096 → EReal)
    (hX : ∀ (b : Fin 8) (i : Fin 4096), V c main_v12 (ix3 b (0 : Fin 1) i) = X b i)
    (hP : ∀ (b : Fin 8) (i : Fin 4096), V c main_v13 (ix3 b (0 : Fin 1) i) = P b i)
    (hN : ∀ (b : Fin 8) (i : Fin 4096), V c main_v14 (ix3 b (0 : Fin 1) i) = N b i)
    (t : Fin cfg0.N) (b : Fin 8) (u : Fin 64) (hb : b.val = t.val / 64) (hu : u.val = t.val % 64) :
    tileSum (F := Ideal) V c t
      = ∑ i : Fin 512, ∑ j : Fin 512, pairTerm X P N b (Cert.TileSum.row u i) (Cert.TileSum.col u j) := by
  unfold tileSum
  refine (tile_value (iblk V c 0 t) (iblk V c 1 t) (iblk V c 2 t) (iblk V c 3 t)).trans ?_
  refine Finset.sum_congr rfl fun i _ => Finset.sum_congr rfl fun j _ => ?_
  have hr : (Cert.TileSum.row u i).val = 512 * (t.val / 8 % 8) + i.val := by
    show 512 * (u.val / 8) + i.val = _
    rw [hu]; omega
  have hc : (Cert.TileSum.col u j).val = 512 * (t.val % 8) + j.val := by
    show 512 * (u.val % 8) + j.val = _
    rw [hu]; omega
  have e0 := (rowValues_apply V c t i b _ hb hr).trans (hX b _)
  have e1 := (colValues_apply V c t j b _ hb hc).trans (hX b _)
  have e2 := (rowMask_apply V c t i b _ hb hr).trans (hP b _)
  have e3 := (colMask_apply V c t j b _ hb hc).trans (hN b _)
  unfold hinge pairTerm
  rw [e0, e1, e2, e3]

/-! ## The running sum over a batch -/

/-- What the body's store leaves at an entry of the output block: the entry it read plus the tile's sum. -/
theorem addTile_apply (s : EReal) (y : FVec Ideal S1x1x128 .f32) (j : S1x1x128.Idx) :
    k0_pay1 (F := Ideal) s y j = y j + s := by
  unfold k0_pay1
  rw [shapeCast_self]
  rfl

/-- The block a batch's first point starts from is zero at every entry. -/
theorem zeroBlock_apply (j : S1x1x128.Idx) : k0_pay2 (F := Ideal) j = 0 := by
  unfold k0_pay2
  exact Ideal.ofBits_zero_f32

/-- The tile's sum at point `n`, as a function of the bare number (zero past the grid). -/
def tileAt (c : Dev nD) (n : ℕ) : EReal := if h : n < cfg0.N then tileSum (F := Ideal) V c ⟨n, h⟩ else 0

theorem tileAt_of_lt (c : Dev nD) (t : Fin cfg0.N) : tileAt V c t.val = tileSum (F := Ideal) V c t := dif_pos t.isLt

/-- After point `n` every entry of the output block is the running sum of the tiles of `n`'s batch, from the batch's
    first point up to `n`. -/
theorem accAt_apply (c : Dev nD) : ∀ (n : ℕ) (hn : n < cfg0.N) (j : S1x1x128.Idx),
    accAt (F := Ideal) V c n hn j = Cert.TileSum.runSum (fun u => tileAt V c (64 * (n / 64) + u)) (n % 64) := by
  intro n
  induction n with
  | zero =>
    intro hn j
    refine (congrFun (accAt_first V c ⟨0, hn⟩ rfl) j).trans ?_
    refine (addTile_apply _ _ j).trans ?_
    rw [zeroBlock_apply, zero_add]
    exact (tileAt_of_lt V c ⟨0, hn⟩).symm
  | succ n ih =>
    intro hn j
    have hN : cfg0.N = 512 := N_0
    by_cases h : (n + 1) % 64 = 0
    · refine (congrFun (accAt_first V c ⟨n + 1, hn⟩ h) j).trans ?_
      refine (addTile_apply _ _ j).trans ?_
      rw [zeroBlock_apply, zero_add, h]
      show _ = tileAt V c (64 * ((n + 1) / 64) + 0)
      rw [show 64 * ((n + 1) / 64) + 0 = n + 1 by omega]
      exact (tileAt_of_lt V c ⟨n + 1, hn⟩).symm
    · refine (congrFun (accAt_later V c ⟨n + 1, hn⟩ h) j).trans ?_
      refine (addTile_apply _ _ j).trans ?_
      show accAt V c n _ j + _ = _
      rw [ih (Nat.lt_of_succ_lt hn) j]
      obtain ⟨m, hm⟩ : ∃ m, (n + 1) % 64 = m + 1 := ⟨(n + 1) % 64 - 1, by omega⟩
      rw [hm, show n % 64 = m by omega, show (n + 1) / 64 = n / 64 by omega]
      show _ = Cert.TileSum.runSum _ m + tileAt V c (64 * (n / 64) + (m + 1))
      rw [show 64 * (n / 64) + (m + 1) = n + 1 by omega]
      exact congrArg _ (tileAt_of_lt V c ⟨n + 1, hn⟩).symm

/-! ## The write-back after a batch's last point, and the row's 64 tiles as all its pairs -/

/-- What the array of per-batch sums ends holding: at every entry of row `b`, the running sum of batch `b`'s 64 tiles
    after the batch's last point. -/
def sums (c : Dev nD) : FVec Ideal S8x1x128 .f32 :=
  fun i => Cert.TileSum.runSum (fun u => tileAt V c (64 * (i 0).val + u)) 63

theorem sums_of_row (c : Dev nD) (i : S8x1x128.Idx) (b : ℕ) (hi : (i 0).val = b) :
    sums V c i = Cert.TileSum.runSum (fun u => tileAt V c (64 * b + u)) 63 := by
  subst hi; rfl

/-- The output's block at point `t`, read off that array, is batch `t / 64`'s sum at every entry. -/
theorem sums_read (c : Dev nD) (t : Fin cfg0.N) (y : S1x1x128.Idx) :
    (((cfg0.win 4).blk t).view.read (Elt Ideal) (sums V c) : FVec Ideal S1x1x128 .f32) y
      = Cert.TileSum.runSum (fun u => tileAt V c (64 * (t.val / 64) + u)) 63 := by
  obtain ⟨h0, h1, h2⟩ := (block_index t).2.2.2.2
  rw [View.read_apply]
  show sums V c _ = _
  refine sums_of_row V c _ _ ?_
  show win0_4.index t 0 * 1 + 1 * (y 0).val = t.val / 64
  have hy : (y 0).val < 1 := (y 0).isLt
  rw [h0]; omega

/-- What a batch's last point writes back is its block of that array. -/
theorem flushed_eq (c : Dev nD) (t : Fin cfg0.N) (hf : (cfg0.win 4).flush t = true) :
    (dat (F := Ideal) V c).flushed 4 t = ((cfg0.win 4).blk t).view.read (Elt Ideal) (sums V c) := by
  have h63 : t.val % 64 = 63 := (flush0_4 t).mp hf
  funext y
  refine Eq.trans ?_ (sums_read V c t y).symm
  show (cfg0.win 4).cut (cfg0.grid.coords t) ((dat V c).after 4 t) y = _
  rw [after_out]
  show accAt V c t.val t.isLt _ = _
  rw [accAt_apply, h63]

/-- Every entry of the array lies in the block its batch's last point writes back. -/
theorem covered (i : S8x1x128.Idx) :
    ∃ t : Fin cfg0.N, (cfg0.win 4).flush t = true ∧ i ∈ ((cfg0.win 4).blk t).view.set := by
  have hg : cfg0.N = 512 := N_0
  have h0 : (i 0).val < 8 := (i 0).isLt
  have h1 : (i 1).val < 1 := (i 1).isLt
  have h2 : (i 2).val < 128 := (i 2).isLt
  have hlt : 64 * (i 0).val + 63 < cfg0.N := by omega
  refine ⟨⟨64 * (i 0).val + 63, hlt⟩, (flush0_4 _).mpr (by show (64 * (i 0).val + 63) % 64 = 63; omega), ?_⟩
  obtain ⟨e0, e1, e2⟩ := (block_index ⟨64 * (i 0).val + 63, hlt⟩).2.2.2.2
  show i ∈ ((View.whole main_v15).slice (win0_4.rect ⟨64 * (i 0).val + 63, hlt⟩)).set
  rw [View.set_slice_whole, Rect.mem_set_unit]
  intro a
  match a with
  | ⟨0, _⟩ =>
    show win0_4.index ⟨64 * (i 0).val + 63, hlt⟩ 0 * 1 ≤ (i 0).val ∧ (i 0).val < win0_4.index ⟨64 * (i 0).val + 63, hlt⟩ 0 * 1 + 1
    rw [e0]
    show (64 * (i 0).val + 63) / 64 * 1 ≤ (i 0).val ∧ (i 0).val < (64 * (i 0).val + 63) / 64 * 1 + 1
    omega
  | ⟨1, _⟩ =>
    show win0_4.index ⟨64 * (i 0).val + 63, hlt⟩ 1 * 1 ≤ (i 1).val ∧ (i 1).val < win0_4.index ⟨64 * (i 0).val + 63, hlt⟩ 1 * 1 + 1
    rw [e1]; omega
  | ⟨2, _⟩ =>
    show win0_4.index ⟨64 * (i 0).val + 63, hlt⟩ 2 * 128 ≤ (i 2).val ∧ (i 2).val < win0_4.index ⟨64 * (i 0).val + 63, hlt⟩ 2 * 128 + 128
    rw [e2]; omega

/-- So the array of per-batch sums ends holding each batch's sum of tiles. -/
theorem sums_final (c : Dev nD) : (dat (F := Ideal) V c).arrAt 4 cfg0.N = sums V c :=
  (dat (F := Ideal) V c).arrAt_eq_of_cover 4 (sums V c) (flushed_eq V c) covered

/-- After the region the array of per-batch sums holds, at every lane of row `b`, the sum of the row's hinge terms
    over all pairs — `X`, `P`, `N` being what the three input arrays hold when the region is entered. -/
theorem sums_apply (c : Dev nD) (X P N : Fin 8 → Fin 4096 → EReal)
    (hX : ∀ (b : Fin 8) (i : Fin 4096), V c main_v12 (ix3 b (0 : Fin 1) i) = X b i)
    (hP : ∀ (b : Fin 8) (i : Fin 4096), V c main_v13 (ix3 b (0 : Fin 1) i) = P b i)
    (hN : ∀ (b : Fin 8) (i : Fin 4096), V c main_v14 (ix3 b (0 : Fin 1) i) = N b i)
    (b : Fin 8) (l : Fin 128) :
    (dat (F := Ideal) V c).arrAt 4 cfg0.N (ix3 b (0 : Fin 1) l) = ∑ i : Fin 4096, ∑ j : Fin 4096, pairTerm X P N b i j := by
  have hg : cfg0.N = 512 := N_0
  refine (congrFun (sums_final V c) (ix3 b (0 : Fin 1) l)).trans ?_
  refine (sums_of_row V c (ix3 b (0 : Fin 1) l) b.val rfl).trans ?_
  rw [Cert.TileSum.runSum_63, Cert.TileSum.sum_tiles (pairTerm X P N b)]
  refine Finset.sum_congr rfl fun u _ => ?_
  have hu : 64 * b.val + u.val < cfg0.N := by have := b.isLt; have := u.isLt; omega
  refine (dif_pos hu).trans ?_
  exact tileSum_apply V c X P N hX hP hN ⟨64 * b.val + u.val, hu⟩ b u
    (by show b.val = (64 * b.val + u.val) / 64; omega) (by show u.val = (64 * b.val + u.val) % 64; omega)

end Cert.KernelIdeal.Val

end
-- ==== Proof.Spec.lean ====
/-
  The loss both programs compute, as one function of the two argument arrays, at the ideal instance.

  Per batch row `b`: the values are divided by the row's maximum (`normed`); a position is positive when its mask value
  exceeds 1/2 and negative when it is below 1/2 (`posMask`, `negMask`, as 0/1 values); the row's loss is the sum over all
  pairs (i, j) of the hinge term `max (1/2 − (xᵢ − xⱼ)) 0 · (posᵢ · negⱼ)` (`perSample`); the row's loss is divided by
  (number of positives · number of negatives + ε), kept only where both counts are positive, and the rows are averaged
  (`finish`). The two programs differ only in how the double sum of `perSample` is grouped.
-/
import Idealize.ShloMosaic.PureOps.Ideal
import Idealize.ShloMosaic.Lib.ValueIdx

noncomputable section

open scoped BigOperators

namespace Cert.Spec

open Idealize.ShloMosaic Idealize.ShloMosaic.ValueIdx

abbrev SArg : Shape := ⟨3, ![8, 64, 64]⟩
abbrev SRow : Shape := ⟨2, ![8, 4096]⟩
abbrev SB : Shape := ⟨1, ![8]⟩
abbrev SB1 : Shape := ⟨2, ![8, 1]⟩
abbrev S0 : Shape := ⟨0, ![]⟩

theorem hArgRow : SArg.ShapeCasts SRow := by decide
theorem hRowB : SRow.ReducesTo [1] SB := by decide
theorem hS0 : 0 < S0.numel := by decide
theorem hBB1 : SB.BroadcastsInDim SB1 (![0] : Fin 1 → Fin SB1.rank) := by decide
theorem hB1Row : SB1.BroadcastsInDim SRow (![0, 1] : Fin 2 → Fin SRow.rank) := by decide
theorem hS0Row : S0.BroadcastsInDim SRow (![] : Fin 0 → Fin SRow.rank) := by decide
theorem hS0B : S0.BroadcastsInDim SB (![] : Fin 0 → Fin SB.rank) := by decide
theorem hBS0 : SB.ReducesTo [0] S0 := by decide

/-- Each row divided by its maximum. -/
def normed (a0 : FVec Ideal SArg .f32) : FVec Ideal SRow .f32 :=
  Host.divf (shapeCast SRow a0 hArgRow)
    (broadcastInDim SRow ![0, 1] hB1Row (broadcastInDim SB1 ![0] hBB1
      (Host.reduce FloatOps.maximumf (shapeCast SRow a0 hArgRow) (constant S0 .f32 0xFF800000#32) hRowB hS0)))

/-- 1 where the mask exceeds 1/2, else 0. -/
def posMask (a1 : FVec Ideal SArg .f32) : FVec Ideal SRow .f32 :=
  uitofp (F := Ideal) .f32 (cmpf (F := Ideal) .ogt (shapeCast SRow a1 hArgRow) (broadcastInDim SRow ![] hS0Row (constant S0 .f32 0x3F000000#32)))

/-- 1 where the mask is below 1/2, else 0. -/
def negMask (a1 : FVec Ideal SArg .f32) : FVec Ideal SRow .f32 :=
  uitofp (F := Ideal) .f32 (cmpf (F := Ideal) .olt (shapeCast SRow a1 hArgRow) (broadcastInDim SRow ![] hS0Row (constant S0 .f32 0x3F000000#32)))

/-- The hinge term of the pair (i, j) of row `b`. -/
def hinge (x p n : FVec Ideal SRow .f32) (b : Fin 8) (i j : Fin 4096) : EReal :=
  max (Ideal.ofBits .f32 0x3F000000#32 - (x (ix2 b i) - x (ix2 b j))) (Ideal.ofBits .f32 0x00000000#32)
    * (p (ix2 b i) * n (ix2 b j))

/-- The row's loss: the hinge terms summed over all pairs. -/
def perSample (x p n : FVec Ideal SRow .f32) : FVec Ideal SB .f32 :=
  fun k => ∑ i : Fin 4096, ∑ j : Fin 4096, hinge x p n (k 0) i j

/-- From the rows' losses and the two masks to the result. -/
def finish (ps : FVec Ideal SB .f32) (p n : FVec Ideal SRow .f32) : FVec Ideal S0 .f32 :=
  Host.divf
    (Host.reduceAdd
      (select
        (andi (cmpf (F := Ideal) .ogt (Host.reduceAdd p (constant S0 .f32 0x00000000#32) hRowB hS0) (broadcastInDim SB ![] hS0B (constant S0 .f32 0x00000000#32)))
              (cmpf (F := Ideal) .ogt (Host.reduceAdd n (constant S0 .f32 0x00000000#32) hRowB hS0) (broadcastInDim SB ![] hS0B (constant S0 .f32 0x00000000#32))))
        (Host.divf ps
          (addf (mulf (Host.reduceAdd p (constant S0 .f32 0x00000000#32) hRowB hS0) (Host.reduceAdd n (constant S0 .f32 0x00000000#32) hRowB hS0))
                (broadcastInDim SB ![] hS0B (constant S0 .f32 0x322BCC77#32))))
        (broadcastInDim SB ![] hS0B (id (constant S0 .f32 0x00000000#32))))
      (constant S0 .f32 0x00000000#32) hBS0 hS0)
    (constant S0 .f32 0x41000000#32)

/-- The loss. -/
def loss (a0 a1 : FVec Ideal SArg .f32) : FVec Ideal S0 .f32 :=
  finish (perSample (normed a0) (posMask a1) (negMask a1)) (posMask a1) (negMask a1)

end Cert.Spec

end
-- ==== Proof.KI.HostValue.lean ====
/-
  The host operations around the kernel region, read at the ideal instance: before the region they make, from the two
  arguments, the rows divided by their maximum and the two masks; after it they take entry (b, 0, 0) of the array of
  per-batch sums as row b's loss and finish as the specification does.
-/
import proofs.«156271_j16037407883702_1_alg».proof.Proof.KI.Fold
import proofs.«156271_j16037407883702_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## Reshapes and the slice read at an index -/

section Index
variable {α : Type}

/-- An `[a, b]` array viewed as `[a, 1, b]` reads, at `(i, u, j)`, the operand at `(i, j)`: both indices have the
    row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The corner `[0:8, 0:1, 0:1]` of an `[8, 1, 128]` array, viewed as 8 entries, holds at `k` the array's entry
    `(k, 0, 0)`. -/
theorem sumsCorner_apply (X : S8x1x128.Idx → α) :
    shapeCast S8 (extractStridedSlice S8x1x1 ![0, 0, 0] X slices_S8x1x128_S8x1x1_0_0_0) shapeCasts_S8x1x1_S8
      = fun k => X (ix3 (show Fin 8 from k 0) (0 : Fin 1) (0 : Fin 128)) := by
  funext k
  refine (shapeCast_apply _ shapeCasts_S8x1x1_S8 k (ix3 (show Fin 8 from k 0) (0 : Fin 1) (0 : Fin 1)) ?_).trans ?_
  · rw [Shape.rowMajor_val_three, Shape.rowMajor_val_one]
    show ((k 0).val * 1 + 0) * 1 + 0 = (k 0).val
    omega
  · exact extractStridedSlice_apply _ X _ _ _ fun a => match a with
      | ⟨0, _⟩ => by show (k 0).val = 0 + (k 0).val; omega
      | ⟨1, _⟩ => by show 0 = 0 + 0; rfl
      | ⟨2, _⟩ => by show 0 = 0 + 0; rfl

end Index

/-! ## Before the region -/

/-- The first input array is the rows divided by their maximum, with a unit axis put in the middle. -/
theorem V1_v12 (c : Dev nD) :
    (V1 m ρ c main_v12 : FVec Ideal S8x1x4096 .f32)
      = shapeCast S8x1x4096 (Cert.Spec.normed (m ((c : Thread nD τ).loc main_arg0))) shapeCasts_S8x4096_S8x1x4096 := by
  show StableHlo.after hostOps0 _ (Proc.devRef .tc main_v12) = _
  after_results
  rfl

/-- The positive mask, before its unit axis is put in. -/
theorem W1_v8 (c : Dev nD) :
    (W1 m ρ c (Proc.devRef .tc main_v8) : FVec Ideal S8x4096 .f32) = Cert.Spec.posMask (m ((c : Thread nD τ).loc main_arg1)) := by
  show StableHlo.after hostOps0 _ (Proc.devRef .tc main_v8) = _
  after_results
  rfl

/-- The negative mask, before its unit axis is put in. -/
theorem W1_v11 (c : Dev nD) :
    (W1 m ρ c (Proc.devRef .tc main_v11) : FVec Ideal S8x4096 .f32) = Cert.Spec.negMask (m ((c : Thread nD τ).loc main_arg1)) := by
  show StableHlo.after hostOps0 _ (Proc.devRef .tc main_v11) = _
  after_results
  rfl

/-- The second input array is the positive mask with a unit axis put in the middle, -/
theorem V1_v13 (c : Dev nD) :
    (V1 m ρ c main_v13 : FVec Ideal S8x1x4096 .f32)
      = shapeCast S8x1x4096 (Cert.Spec.posMask (m ((c : Thread nD τ).loc main_arg1))) shapeCasts_S8x4096_S8x1x4096 := by
  show StableHlo.after hostOps0 _ (Proc.devRef .tc main_v13) = _
  after_results
  rfl

/-- the third the negative mask likewise. -/
theorem V1_v14 (c : Dev nD) :
    (V1 m ρ c main_v14 : FVec Ideal S8x1x4096 .f32)
      = shapeCast S8x1x4096 (Cert.Spec.negMask (m ((c : Thread nD τ).loc main_arg1))) shapeCasts_S8x4096_S8x1x4096 := by
  show StableHlo.after hostOps0 _ (Proc.devRef .tc main_v14) = _
  after_results
  rfl

/-- When the region is entered the first input array holds the rows divided by their maximum, -/
theorem V1_normed (c : Dev nD) (b : Fin 8) (i : Fin 4096) :
    V1 m ρ c main_v12 (ix3 b (0 : Fin 1) i) = Cert.Spec.normed (m ((c : Thread nD τ).loc main_arg0)) (ix2 b i) :=
  (congrFun (V1_v12 m ρ c) (ix3 b (0 : Fin 1) i)).trans (shapeCast_ab_a1b_apply _ _ b 0 i)

/-- the second the positive mask, -/
theorem V1_pos (c : Dev nD) (b : Fin 8) (i : Fin 4096) :
    V1 m ρ c main_v13 (ix3 b (0 : Fin 1) i) = Cert.Spec.posMask (m ((c : Thread nD τ).loc main_arg1)) (ix2 b i) :=
  (congrFun (V1_v13 m ρ c) (ix3 b (0 : Fin 1) i)).trans (shapeCast_ab_a1b_apply _ _ b 0 i)

/-- the third the negative mask. -/
theorem V1_neg (c : Dev nD) (b : Fin 8) (i : Fin 4096) :
    V1 m ρ c main_v14 (ix3 b (0 : Fin 1) i) = Cert.Spec.negMask (m ((c : Thread nD τ).loc main_arg1)) (ix2 b i) :=
  (congrFun (V1_v14 m ρ c) (ix3 b (0 : Fin 1) i)).trans (shapeCast_ab_a1b_apply _ _ b 0 i)

/-! ## After the region: the three stretches over any contents `W` of the buffers at the region's exit -/

section Tail
variable (W : Valuation τ sig (Elt Ideal))

/-- The zero that fills the rows without a valid pair. -/
theorem after1_cst7 :
    (StableHlo.after hostOps1 W (Proc.devRef .tc main_cst_7) : FVec Ideal S_ .f32) = constant (F := Ideal) S_ .f32 0x00000000#32 := by
  after_results

/-- A row is valid when it has a positive and a negative position. -/
theorem after1_v27 :
    (StableHlo.after hostOps1 W (Proc.devRef .tc main_v27) : IVec S8 1)
      = andi
          (cmpf (F := Ideal) .ogt
            (Host.reduceAdd (W (Proc.devRef .tc main_v8) : FVec Ideal S8x4096 .f32) (constant (F := Ideal) S_ .f32 0x00000000#32) reducesTo_S8x4096_S8_d1 h_S_)
            (broadcastInDim S8 ![] bcast_S_S8 (constant (F := Ideal) S_ .f32 0x00000000#32)))
          (cmpf (F := Ideal) .ogt
            (Host.reduceAdd (W (Proc.devRef .tc main_v11) : FVec Ideal S8x4096 .f32) (constant (F := Ideal) S_ .f32 0x00000000#32) reducesTo_S8x4096_S8_d1 h_S_)
            (broadcastInDim S8 ![] bcast_S_S8 (constant (F := Ideal) S_ .f32 0x00000000#32))) := by
  after_results

/-- The corner of the per-batch sums over (positives · negatives + ε). -/
theorem after1_v28 :
    (StableHlo.after hostOps1 W (Proc.devRef .tc main_v28) : FVec Ideal S8 .f32)
      = Host.divf
          (shapeCast S8 (extractStridedSlice S8x1x1 ![0, 0, 0] (W (Proc.devRef .tc main_v15) : FVec Ideal S8x1x128 .f32) slices_S8x1x128_S8x1x1_0_0_0) shapeCasts_S8x1x1_S8)
          (addf (mulf (Host.reduceAdd (W (Proc.devRef .tc main_v8) : FVec Ideal S8x4096 .f32) (constant (F := Ideal) S_ .f32 0x00000000#32) reducesTo_S8x4096_S8_d1 h_S_)
                      (Host.reduceAdd (W (Proc.devRef .tc main_v11) : FVec Ideal S8x4096 .f32) (constant (F := Ideal) S_ .f32 0x00000000#32) reducesTo_S8x4096_S8_d1 h_S_))
                (broadcastInDim S8 ![] bcast_S_S8 (constant (F := Ideal) S_ .f32 0x322BCC77#32))) := by
  after_results
  rfl

/-- The selection: the quotient on the valid rows, zero elsewhere. -/
theorem after2_v29 :
    (StableHlo.after hostOps1_1 W (Proc.devRef .tc main_v29) : FVec Ideal S8 .f32)
      = select (W (Proc.devRef .tc main_v27) : IVec S8 1) (W (Proc.devRef .tc main_v28) : FVec Ideal S8 .f32)
          (broadcastInDim S8 ![] bcast_S_S8 (id (W (Proc.devRef .tc main_cst_7) : FVec Ideal S_ .f32))) := by
  after_results
  rfl

/-- The mean over the eight rows. -/
theorem after3_v31 :
    (StableHlo.after hostOps1_2 W (Proc.devRef .tc main_v31) : FVec Ideal S_ .f32)
      = Host.divf (Host.reduceAdd (W (Proc.devRef .tc main_v29) : FVec Ideal S8 .f32) (constant (F := Ideal) S_ .f32 0x00000000#32) reducesTo_S8_S_d0 h_S_)
          (constant (F := Ideal) S_ .f32 0x41000000#32) := by
  after_results

/-- The three stretches together are the specification's last stage, on the corner of the per-batch sums and the two
    masks as `W` holds them. -/
theorem hostTail_result :
    (StableHlo.after hostOps1_2 (StableHlo.after hostOps1_1 (StableHlo.after hostOps1 W)) (Proc.devRef .tc main_v31) : FVec Ideal S_ .f32)
      = Cert.Spec.finish
          (shapeCast S8 (extractStridedSlice S8x1x1 ![0, 0, 0] (W (Proc.devRef .tc main_v15) : FVec Ideal S8x1x128 .f32) slices_S8x1x128_S8x1x1_0_0_0) shapeCasts_S8x1x1_S8)
          (W (Proc.devRef .tc main_v8)) (W (Proc.devRef .tc main_v11)) := by
  rw [after3_v31, after2_v29, after1_v27, after1_v28, after1_cst7]
  rfl

end Tail

/-- At the return the result is the specification's last stage applied to entry (b, 0, 0) of the per-batch sums. -/
theorem W5_result (c : Dev nD) :
    W5 m ρ c (Proc.devRef .tc main_v31)
      = Cert.Spec.finish (fun k => sums m ρ c (ix3 (show Fin 8 from k 0) (0 : Fin 1) (0 : Fin 128)))
          (Cert.Spec.posMask (m ((c : Thread nD τ).loc main_arg1))) (Cert.Spec.negMask (m ((c : Thread nD τ).loc main_arg1))) := by
  refine (hostTail_result (W2 m ρ c)).trans ?_
  rw [W2_sums, W2_of_ne m ρ c main_v8 (by decide), W2_of_ne m ρ c main_v11 (by decide), W1_v8, W1_v11, sumsCorner_apply]

end Cert.KernelIdeal.Val

end
-- ==== Proof.LibReduce2.lean ====
/-
  A sum over the TWO trailing axes of a rank-3 array.

  A rank-3 array of extents a × b × c summed over its axes 1 and 2 leaves one entry per leading coordinate k, and that
  entry is the double sum ∑ i < b, ∑ j < c of the array at (k, i, j): the indices that lose their two trailing
  coordinates to k are exactly the triples (k, i, j), one for each pair (i, j). Stated for any extents and any
  commutative additive monoid (`sum_filter_drop_axes12`), then for the exact sum on the extended reals
  (`hostReduceAdd_axes12`) and for the array-level sum with its initial value (`reduceAdd_axes12`).
-/
import Idealize.ShloMosaic.PureOps.Ideal.Laws
import Idealize.ShloMosaic.Lib.ValueIdx

noncomputable section

open scoped BigOperators

namespace Cert.LibReduce2

open Idealize.ShloMosaic Idealize.ShloMosaic.ValueIdx

variable {a b c : Nat}

/-- Removing axes 1 and 2 of a rank-3 shape keeps axis 0 alone, whatever the extents. -/
theorem kept_axes12 : (⟨3, ![a, b, c]⟩ : Shape).kept [1, 2] = [0] := by
  show (List.finRange 3).filter (· ∉ ([1, 2] : List (Fin 3))) = [0]
  decide

/-- So the index left after the two trailing coordinates are dropped carries the leading coordinate. -/
theorem drop_axes12_val (h : (⟨3, ![a, b, c]⟩ : Shape).ReducesTo [1, 2] ⟨1, ![a]⟩)
    (i : (⟨3, ![a, b, c]⟩ : Shape).Idx) : (h.drop i 0 : Nat) = i 0 :=
  h.drop_apply_val_of_eq i 0 0 (by rw [kept_axes12]; exact Nat.zero_lt_one) (by simp only [kept_axes12]; rfl)

/-- The indices of an a × b × c array whose leading coordinate is `k 0`, summed, are the pairs (i, j) of trailing
    coordinates, summed: (i₀, i₁, i₂) ↦ (i₁, i₂) is a bijection from those indices onto `Fin b × Fin c`, with inverse
    (i, j) ↦ (k 0, i, j). -/
theorem sum_filter_drop_axes12 {M : Type*} [AddCommMonoid M] (h : (⟨3, ![a, b, c]⟩ : Shape).ReducesTo [1, 2] ⟨1, ![a]⟩)
    (x : (⟨3, ![a, b, c]⟩ : Shape).Idx → M) (k : (⟨1, ![a]⟩ : Shape).Idx) :
    ∑ i ∈ Finset.univ.filter (fun i => h.drop i = k), x i = ∑ i : Fin b, ∑ j : Fin c, x (ix3 (k 0) i j) := by
  rw [← Fintype.sum_prod_type']
  refine Finset.sum_nbij' (fun i => ((i 1 : Fin b), (i 2 : Fin c))) (fun p => ix3 (k 0) p.1 p.2) ?_ ?_ ?_ ?_ ?_
  · intro i _; exact Finset.mem_univ _
  · intro p _
    refine Finset.mem_filter.2 ⟨Finset.mem_univ _, funext fun d => ?_⟩
    match d with
    | ⟨0, _⟩ => exact Fin.ext (drop_axes12_val h _)
  · intro i hi
    have hk := congrFun (Finset.mem_filter.1 hi).2 0
    funext d
    match d with
    | ⟨0, _⟩ => exact Fin.ext ((congrArg Fin.val hk).symm.trans (drop_axes12_val h i))
    | ⟨1, _⟩ => rfl
    | ⟨2, _⟩ => rfl
  · intro p _; rfl
  · intro i hi
    have hk := congrFun (Finset.mem_filter.1 hi).2 0
    refine congrArg x (funext fun d => ?_)
    match d with
    | ⟨0, _⟩ => exact Fin.ext ((drop_axes12_val h i).symm.trans (congrArg Fin.val hk))
    | ⟨1, _⟩ => rfl
    | ⟨2, _⟩ => rfl

/-- The exact sum over axes 1 and 2 of an a × b × c array of extended reals, at `k`: the initial value plus the double
    sum over (i, j) of the array at (k 0, i, j). -/
theorem hostReduceAdd_axes12 (h : (⟨3, ![a, b, c]⟩ : Shape).ReducesTo [1, 2] ⟨1, ![a]⟩)
    (x : (⟨3, ![a, b, c]⟩ : Shape).Idx → EReal) (init : EReal) (k : (⟨1, ![a]⟩ : Shape).Idx) :
    Ideal.hostReduceAdd h x init k = init + ∑ i : Fin b, ∑ j : Fin c, x (ix3 (k 0) i j) := by
  unfold Ideal.hostReduceAdd
  rw [sum_filter_drop_axes12]

/-- The same of the array-level sum at the ideal values, whose initial value is a rank-zero array: its one element plus
    the double sum. -/
theorem reduceAdd_axes12 {φ : FTy} {u : Shape} (x : FVec Ideal ⟨3, ![a, b, c]⟩ φ) (init : u.Idx → Ideal φ)
    (h : (⟨3, ![a, b, c]⟩ : Shape).ReducesTo [1, 2] ⟨1, ![a]⟩) (hu : 0 < u.numel) (k : (⟨1, ![a]⟩ : Shape).Idx) :
    Host.reduceAdd (F := Ideal) x init h hu k = init (Shape.Idx.first hu) + ∑ i : Fin b, ∑ j : Fin c, x (ix3 (k 0) i j) :=
  hostReduceAdd_axes12 h x _ k

end Cert.LibReduce2

end
-- ==== Proof.RefValue.lean ====
/-
  The reference's result is the specification's loss, at the ideal values.

  The reference first forms three 8 × 4096 arrays from its two arguments: the rows divided by their maxima (x) and the
  two 0/1 masks (p where the mask value exceeds 1/2, n where it is below). It then builds an 8 × 4096 × 4096 array whose
  entry (b, i, j) is the hinge term  max (1/2 − (x(b,i) − x(b,j))) 0 · (p(b,i) · n(b,j)):  x and p are copied along a new
  last axis, so that they are read at (b, i), and x and n along a new middle axis, so that they are read at (b, j); the
  two constants are copied everywhere (`alongRows_apply`, `alongCols_apply`, `everywhere_apply`, `hingeArray_apply`).
  That array is summed over its two pair axes from the initial value 0, which leaves, for each row b, the double sum
  ∑ i, ∑ j of the hinge terms: the specification's row loss (`sum_hingeArray`, by the two-axis sum of LibReduce2).
  The operations before the array (x, p, n) and after the sum (the counts of positives and negatives, the quotient, the
  selection, the average) are the specification's own `normed`, `posMask`, `negMask` and `finish`, operation for
  operation, so they are carried as those functions and never opened (`result_eq`, `run_loss`).
-/
import proofs.«156271_j16037407883702_1_alg».proof.Proof.RefRun
import proofs.«156271_j16037407883702_1_alg».proof.Proof.Spec
import proofs.«156271_j16037407883702_1_alg».proof.Proof.LibReduce2
import Idealize.ShloMosaic.Lib.Pipeline.Value
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx

/-! ## The copies read at an entry -/

section Layout
variable {α : Type}

/-- A row vector copied along a new last axis: entry (b, i, j) is the vector's entry (b, i). -/
theorem alongRows_apply (y : S8x4096.Idx → α) (b : Fin 8) (i j : Fin 4096) :
    broadcastInDim S8x4096x4096 ![0, 1, 2] bcast_S8x4096x1_S8x4096x4096_0_1_2
      (broadcastInDim S8x4096x1 ![0, 1] bcast_S8x4096_S8x4096x1_0_1 y) (ix3 b i j) = y (ix2 b i) := by
  refine (broadcastInDim_apply _ bcast_S8x4096x1_S8x4096x4096_0_1_2 _ (ix3 b i j) (ix3 b i (0 : Fin 1)) (fun a => ?_)).trans ?_
  · match a with
    | ⟨0, _⟩ => show b.val = if (8 : Nat) = 1 then 0 else b.val; rw [if_neg (by decide)]
    | ⟨1, _⟩ => show i.val = if (4096 : Nat) = 1 then 0 else i.val; rw [if_neg (by decide)]
    | ⟨2, _⟩ => show 0 = if (1 : Nat) = 1 then 0 else j.val; rw [if_pos rfl]
  · refine broadcastInDim_apply _ bcast_S8x4096_S8x4096x1_0_1 y (ix3 b i (0 : Fin 1)) (ix2 b i) (fun a => ?_)
    match a with
    | ⟨0, _⟩ => show b.val = if (8 : Nat) = 1 then 0 else b.val; rw [if_neg (by decide)]
    | ⟨1, _⟩ => show i.val = if (4096 : Nat) = 1 then 0 else i.val; rw [if_neg (by decide)]

/-- A row vector copied along a new middle axis: entry (b, i, j) is the vector's entry (b, j). -/
theorem alongCols_apply (y : S8x4096.Idx → α) (b : Fin 8) (i j : Fin 4096) :
    broadcastInDim S8x4096x4096 ![0, 1, 2] bcast_S8x1x4096_S8x4096x4096_0_1_2
      (broadcastInDim S8x1x4096 ![0, 2] bcast_S8x4096_S8x1x4096_0_2 y) (ix3 b i j) = y (ix2 b j) := by
  refine (broadcastInDim_apply _ bcast_S8x1x4096_S8x4096x4096_0_1_2 _ (ix3 b i j) (ix3 b (0 : Fin 1) j) (fun a => ?_)).trans ?_
  · match a with
    | ⟨0, _⟩ => show b.val = if (8 : Nat) = 1 then 0 else b.val; rw [if_neg (by decide)]
    | ⟨1, _⟩ => show 0 = if (1 : Nat) = 1 then 0 else i.val; rw [if_pos rfl]
    | ⟨2, _⟩ => show j.val = if (4096 : Nat) = 1 then 0 else j.val; rw [if_neg (by decide)]
  · refine broadcastInDim_apply _ bcast_S8x4096_S8x1x4096_0_2 y (ix3 b (0 : Fin 1) j) (ix2 b j) (fun a => ?_)
    match a with
    | ⟨0, _⟩ => show b.val = if (8 : Nat) = 1 then 0 else b.val; rw [if_neg (by decide)]
    | ⟨1, _⟩ => show j.val = if (4096 : Nat) = 1 then 0 else j.val; rw [if_neg (by decide)]

/-- A scalar copied to every entry of the 8 × 4096 × 4096 array. -/
theorem everywhere_apply (v : S_.Idx → α) (k : S8x4096x4096.Idx) :
    broadcastInDim S8x4096x4096 ![] bcast_S_S8x4096x4096 v k = v ix0 :=
  broadcastInDim_apply _ bcast_S_S8x4096x4096 v k ix0 (fun a => a.elim0)

end Layout

/-! ## The hinge array and its sum over the pair axes -/

/-- The array of hinge terms: entry (b, i, j) is max (1/2 − (xᵢ − xⱼ)) 0 · (pᵢ · nⱼ) of row b. -/
def hingeArray (x p n : FVec Ideal S8x4096 .f32) : FVec Ideal S8x4096x4096 .f32 :=
  mulf
    (maximumf
      (subf (broadcastInDim S8x4096x4096 ![] bcast_S_S8x4096x4096 (constant (F := Ideal) S_ .f32 0x3F000000#32))
        (subf
          (broadcastInDim S8x4096x4096 ![0, 1, 2] bcast_S8x4096x1_S8x4096x4096_0_1_2 (broadcastInDim S8x4096x1 ![0, 1] bcast_S8x4096_S8x4096x1_0_1 x))
          (broadcastInDim S8x4096x4096 ![0, 1, 2] bcast_S8x1x4096_S8x4096x4096_0_1_2 (broadcastInDim S8x1x4096 ![0, 2] bcast_S8x4096_S8x1x4096_0_2 x))))
      (broadcastInDim S8x4096x4096 ![] bcast_S_S8x4096x4096 (constant (F := Ideal) S_ .f32 0x00000000#32)))
    (mulf
      (broadcastInDim S8x4096x4096 ![0, 1, 2] bcast_S8x4096x1_S8x4096x4096_0_1_2 (broadcastInDim S8x4096x1 ![0, 1] bcast_S8x4096_S8x4096x1_0_1 p))
      (broadcastInDim S8x4096x4096 ![0, 1, 2] bcast_S8x1x4096_S8x4096x4096_0_1_2 (broadcastInDim S8x1x4096 ![0, 2] bcast_S8x4096_S8x1x4096_0_2 n)))

/-- Its entry (b, i, j) is the specification's hinge term of the pair (i, j) of row b. -/
theorem hingeArray_apply (x p n : FVec Ideal S8x4096 .f32) (b : Fin 8) (i j : Fin 4096) :
    hingeArray x p n (ix3 b i j) = Cert.Spec.hinge x p n b i j := by
  unfold hingeArray Cert.Spec.hinge
  rw [mulf_apply, maximumf_apply, subf_apply, subf_apply, mulf_apply, everywhere_apply, everywhere_apply,
    alongRows_apply, alongCols_apply, alongRows_apply, alongCols_apply, constant_apply, constant_apply]

/-- The sum of the hinge array over its two pair axes is the specification's row loss. -/
theorem sum_hingeArray (x p n : FVec Ideal S8x4096 .f32) :
    Host.reduceAdd (F := Ideal) (hingeArray x p n) (constant (F := Ideal) S_ .f32 0x00000000#32) reducesTo_S8x4096x4096_S8_d1_2 h_S_
      = Cert.Spec.perSample x p n := by
  funext k
  refine (Cert.LibReduce2.reduceAdd_axes12 (a := 8) (b := 4096) (c := 4096) (hingeArray x p n) _ _ h_S_ k).trans ?_
  rw [constant_apply, Ideal.ofBits_zero_f32, zero_add]
  unfold Cert.Spec.perSample
  exact Finset.sum_congr rfl fun i _ => Finset.sum_congr rfl fun j _ => hingeArray_apply x p n (k 0) i j

/-! ## The result -/

/-- The reference's result, read by definition as the specification's outer chain applied to the sum of the hinge array
    of the three prefix arrays, is the specification's loss: the one real step is `sum_hingeArray`. -/
theorem result_eq (a0 a1 : FVec Ideal S8x64x64 .f32) :
    Cert.Spec.finish
      (Host.reduceAdd (F := Ideal) (hingeArray (Cert.Spec.normed a0) (Cert.Spec.posMask a1) (Cert.Spec.negMask a1))
        (constant (F := Ideal) S_ .f32 0x00000000#32) reducesTo_S8x4096x4096_S8_d1_2 h_S_)
      (Cert.Spec.posMask a1) (Cert.Spec.negMask a1)
    = Cert.Spec.loss a0 a1 :=
  congrArg (fun ps => Cert.Spec.finish ps (Cert.Spec.posMask a1) (Cert.Spec.negMask a1))
    (sum_hingeArray (Cert.Spec.normed a0) (Cert.Spec.posMask a1) (Cert.Spec.negMask a1))

/-- Every execution of the reference ends with its result buffer at the specification's loss of the two arguments'
    launch contents, and the arguments unchanged. -/
theorem run_loss (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v40) = Cert.Spec.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono
    (fun _ h c => ⟨(h c).1.trans (result_eq (m ((c.tc : Thread nD τ).loc main_arg0)) (m ((c.tc : Thread nD τ).loc main_arg1))), (h c).2⟩)
    (Cert.ReferenceIdeal.ValueP.run (F := Ideal) m ρ)

end Cert.ReferenceIdeal.RefValue

end
-- ==== Proof.lean ====
/-
  The certificate's five claims.

  Both programs compute one loss: per batch row the hinge terms `max (1/2 − (xᵢ − xⱼ)) 0 · (posᵢ · negⱼ)` of the
  normalised values, summed over all pairs (i, j), divided by (positives · negatives + ε) where both counts are
  positive, and averaged over the rows (`Cert.Spec.loss`). The reference sums a row's 4096 × 4096 terms in one host
  reduction; the kernel sums them tile by tile (512 × 512 tiles, first along a tile's columns, then along its rows) and
  adds the 64 tiles of a row one grid point at a time into one output block. On the extended reals addition is
  commutative and associative, so the two groupings give the same sum; every other operation is shared, and no
  property of the inputs is used.

  The frames: the kernel's program runs as host operations, the kernel region and more host operations, at the word
  level and at the ideal instance alike (one text for both); the reference is host operations only. The ideal pass
  rewrote nothing, so the idealization claim has nothing to state.
-/
import proofs.«156271_j16037407883702_1_alg».proof.Defs
import proofs.«156271_j16037407883702_1_alg».proof.Proof.Gen.Kernel
import proofs.«156271_j16037407883702_1_alg».proof.Proof.Gen.KernelIdeal
import proofs.«156271_j16037407883702_1_alg».proof.Proof.Gen.ReferenceIdeal
import proofs.«156271_j16037407883702_1_alg».proof.Proof.Gen.Pre_finite_inputs
import proofs.«156271_j16037407883702_1_alg».proof.Proof.K.Run
import proofs.«156271_j16037407883702_1_alg».proof.Proof.KI.Run
import proofs.«156271_j16037407883702_1_alg».proof.Proof.KI.RegionValue
import proofs.«156271_j16037407883702_1_alg».proof.Proof.KI.HostValue
import proofs.«156271_j16037407883702_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel's result is the loss -/

section KernelValue

open Cert.KernelIdeal Cert.KernelIdeal.Hand

/-- At the return the kernel program's result buffer holds the loss of the two arguments: the host operations before
    the region make the normalised rows and the masks, the region leaves in every lane of row `b` the sum of the row's
    hinge terms over all pairs, and the host operations after it are the specification's last stage. -/
theorem kernel_loss (m : (ℓ : Loc nD τ sig) → Buf (Elt Ideal) ℓ) (ρ : Dev nD → PrngReg) (c : Dev nD) :
    W5 m ρ c (Proc.devRef .tc main_v31)
      = Cert.Spec.loss (m ((c : Thread nD τ).loc main_arg0)) (m ((c : Thread nD τ).loc main_arg1)) := by
  rw [Cert.KernelIdeal.Val.W5_result]
  unfold Cert.Spec.loss
  refine congrArg (fun ps => Cert.Spec.finish ps _ _) (funext fun k => ?_)
  exact Cert.KernelIdeal.Val.sums_apply (V1 m ρ) c
    (fun b i => Cert.Spec.normed (m ((c : Thread nD τ).loc main_arg0)) (ix2 b i))
    (fun b i => Cert.Spec.posMask (m ((c : Thread nD τ).loc main_arg1)) (ix2 b i))
    (fun b i => Cert.Spec.negMask (m ((c : Thread nD τ).loc main_arg1)) (ix2 b i))
    (Cert.KernelIdeal.Val.V1_normed m ρ c) (Cert.KernelIdeal.Val.V1_pos m ρ c) (Cert.KernelIdeal.Val.V1_neg m ρ c)
    (show Fin 8 from k 0) (0 : Fin 128)

end KernelValue

/-! ## The claims -/

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.RefValue.run_loss m ρ)

theorem preserves : Cert.preserves_Kernel_KernelIdeal := trivial

/-- Run from memories that agree on the arguments, both programs end with the loss of those arguments in their result. -/
theorem algebraic : Cert.algebraic_KernelIdeal_ReferenceIdeal := by
  intro m ρ m' ρ' _ hagree
  refine ⟨fun c => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c =>
      ⟨(h c _ (Cert.KernelIdeal.Hand.mem_uc Cert.KernelIdeal.main_v31 (by decide))).trans (kernel_loss m ρ c),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c)⟩)
      (Cert.KernelIdeal.Hand.run m ρ)
  · refine (θ_run Cert.ReferenceIdeal.defs _ _).mono (fun _ h c => ⟨(h c).1.trans ?_, (h c).2⟩)
      (Cert.ReferenceIdeal.RefValue.run_loss m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
